-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S8192 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192 : Shape := ⟨1, ![8192]⟩
abbrev S8192x1 : Shape := ⟨2, ![8192, 1]⟩
abbrev S1x8192 : Shape := ⟨2, ![1, 8192]⟩
abbrev S32x1x128 : Shape := ⟨3, ![32, 1, 128]⟩
abbrev S256x64 : Shape := ⟨2, ![256, 64]⟩
abbrev S256x1 : Shape := ⟨2, ![256, 1]⟩
abbrev S1x1x128 : Shape := ⟨3, ![1, 1, 128]⟩
abbrev S256x8192 : Shape := ⟨2, ![256, 8192]⟩
abbrev S256 : Shape := ⟨1, ![256]⟩
abbrev S1x64x128 : Shape := ⟨3, ![1, 64, 128]⟩
abbrev S1x128 : Shape := ⟨2, ![1, 128]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S32x1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x1, .i32⟩
  | .local _ .vmem, ⟨4, _⟩ => ⟨S256x1, .i32⟩
  | .local _ .vmem, ⟨5, _⟩ => ⟨S1x8192, .i32⟩
  | .local _ .vmem, ⟨6, _⟩ => ⟨S1x1x128, .f32⟩
  | .local _ .vmem, ⟨7, _⟩ => ⟨S1x1x128, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S256x64_S256x64_0_0 : ∀ a, (![0, 0] : Fin 2 → Nat) a + S256x64.size a ≤ S256x64.size a
  h_S256x64 : 0 < S256x64.numel
  inb_S8192x64_S8192x64_0_0 : ∀ a, (![0, 0] : Fin 2 → Nat) a + S8192x64.size a ≤ S8192x64.size a
  h_S8192x64 : 0 < S8192x64.numel
  reduces_S256x64_S256 : S256x64.Reduces [1] S256
  shapeCasts_S256_S256x1 : S256.ShapeCasts S256x1
  reduces_S8192x64_S8192 : S8192x64.Reduces [1] S8192
  broadcasts_S256x1_S256x8192 : S256x1.Broadcasts S256x8192
  broadcasts_S1x8192_S256x8192 : S1x8192.Broadcasts S256x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S256x8192_d0_w32 : S256x8192.Iotas .tc 32 [0]
  iota_S256x8192_d1_w32 : S256x8192.Iotas .tc 32 [1]
  reduces_S256x8192_S8192 : S256x8192.Reduces [0] S8192
  shapeCasts_S1x8192_S1x64x128 : S1x8192.ShapeCasts S1x64x128
  reduces_S1x64x128_S1x128 : S1x64x128.Reduces [1] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S32x1x128_S_d0_1_2 : S32x1x128.ReducesTo [0, 1, 2] S_
  h_S_ : 0 < S_.numel
  dot_S256x64_S8192x64_S256x8192_1_1_0_0_n_n_wf : DotDims.WF S256x64 S8192x64 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

def dot_S256x64_S8192x64_S256x8192_1_1_0_0_n_n : DotDims S256x64 S8192x64 S256x8192 where
  lhsContracting := [1]
  rhsContracting := [1]
  lhsNonContracting := [0]
  rhsNonContracting := [0]
  lhsBatch := []
  rhsBatch := []
  wf := dot_S256x64_S8192x64_S256x8192_1_1_0_0_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x8192, .i1⟩
  | .hbm, ⟨37, _⟩ => ⟨S8192x1, .i32⟩
  | .hbm, ⟨38, _⟩ => ⟨S1x8192, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KBBody.lean ====
/-
  One grid point of the loss kernel, as a triple over its five staging buffers.

  The body loads the row block (256 × 64), the whole embedding matrix (8192 × 64), the row block's labels
  (256 × 1) and all labels (1 × 8192), computes from them the 128 lane sums of the block's pair terms, and stores
  those into the output's buffer (1 × 1 × 128), which it covers whole. Nothing else is written: the four input
  buffers end as they were found.
-/
import proofs.«112609_g56977036148935_feedfinal_177_8_alg».proof.Proof.Gen.Kernel.Launch
import proofs.«112609_g56977036148935_feedfinal_177_8_alg».proof.Proof.Gen.Kernel.Skeleton
import proofs.«112609_g56977036148935_feedfinal_177_8_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles: each access is the whole buffer -/

abbrev rRows : Rect S256x64 := Rect.unit (s := S256x64) ![0, 0] S256x64.size inb_S256x64_S256x64_0_0
abbrev rAll : Rect S8192x64 := Rect.unit (s := S8192x64) ![0, 0] S8192x64.size inb_S8192x64_S8192x64_0_0
abbrev rLabRows : Rect S256x1 := Rect.unit (s := S256x1) ![0, 0] S256x1.size inb_S256x1_S256x1_0_0
abbrev rLabAll : Rect S1x8192 := Rect.unit (s := S1x8192) ![0, 0] S1x8192.size inb_S1x8192_S1x8192_0_0
abbrev rOut : Rect S1x1x128 := Rect.unit (s := S1x1x128) ![0, 0, 0] S1x1x128.size inb_S1x1x128_S1x1x128_0_0_0

/-- The 128 lane sums the body stores at grid coordinates i, as a function of what its four loads read. -/
def laneSums (i : grid0.Coords) (v0 : Vec F S256x64 .f32) (v1 : Vec F S8192x64 .f32) (v17 : Vec F S256x1 .i32) (v19 : Vec F S1x8192 .i32) :
    FVec F S1x1x128 .f32 :=
  k0_pay1 (k0_pay5 v17 v19) (k0_pay6 i v0 v1 v17 v19) (k0_pay7 v0 v1) (k0_pay8 (F := F))

/-- What the output's staging buffer holds after the body, from the four input buffers' contents: its one store. -/
def outBlock (i : grid0.Coords) (x0 : Vec F S256x64 .f32) (x1 : Vec F S8192x64 .f32) (x2 : Vec F S256x1 .i32) (x3 : Vec F S1x8192 .i32) :
    Vec F S1x1x128 .f32 :=
  View.canon [⟨rOut, laneSums i (View.ld x0 rRows) (View.ld x1 rAll) (View.ld x2 rLabRows) (View.ld x3 rLabAll)⟩]

/-- The one store covers the buffer. -/
theorem outCover (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

set_option maxHeartbeats 1000000 in
/-- The body on whole staging memrefs, the inputs at contents x0 … x3 and the output at anything, runs to the
    continuation holding the inputs as they were and the output at outBlock of them. -/
theorem sound_kernel (c : Dev nD) (E : Set ℕ) (i : grid0.Coords)
    (arg1 : Memref sig .tc .vmem S256x64 .f32) (harg1 : arg1.IsWhole) (arg2 : Memref sig .tc .vmem S8192x64 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S1x1x128 .f32) (harg5 : arg5.IsWhole)
    (x0 : Vec F S256x64 .f32) (x1 : Vec F S8192x64 .f32) (x2 : Vec F S256x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock i x0 x1 x2 x3)) -∗ K ⟨⟩))
      ⊢ wp frame (wpE (defs₀ (F := F)) Variants.none c none) E
          (cc0__loss_block_kernel i arg1 harg1 arg2 harg2 arg3 harg3 arg4 harg4 arg5 harg5) K := by
  simp only [cc0__loss_block_kernel_eq_skeleton]; unfold cc0__loss_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (outCover _)]
  unfold outBlock laneSums
  sl_unfold_run_names
  simp only [View.readAt_eq_ld]

end Cert.Kernel.Hand

end
-- ==== Proof.KBData.lean ====
/-
  The loss kernel's pipeline on one core: what the region finds in its arrays, each window's block at a grid
  point, and the proof data of the pipeline.

  Grid point t stages rows 256·t … 256·t+255 of the embedding matrix (window 0) and of the label column (window 2),
  the whole matrix (window 1) and the whole label row (window 3), and writes back row t of the 32 × 1 × 128 partial
  sums (window 4). Windows 0 and 1 read ONE array, the embedding matrix: each holds half of it. The body only
  reads its four inputs, so each input's buffer holds its block at every point, fetched there or not.
-/
import proofs.«112609_g56977036148935_feedfinal_177_8_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents when the region is entered -/

/-- Core c's buffers at launch, -/
abbrev W0 (c : Dev nD) : Valuation τ sig (Elt F) := fun b => m (c, b)
/-- and after the two reshapes of the labels: what the region is entered from. -/
abbrev W1 (c : Dev nD) : Valuation τ sig (Elt F) := StableHlo.after hostOps0 (W0 m c)
/-- The same read at a TensorCore reference. -/
abbrev V (c : Dev nD) (b : Ref sig .tc) : Buf (Elt F) ((c : Thread nD τ).loc b) := W1 m c (Proc.devRef .tc b)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place: one statement per input window. -/
theorem before_in_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core c: the arrays as the region finds them; after the body at point t each input's buffer at
    its block and the output's at the lane sums of the input blocks; the invariant the scoped rest and the generator
    register, untouched; nothing owed; the embedding matrix held half by window 0 and half by window 1, the label
    arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (iblk m c 0 t) (iblk m c 1 t) (iblk m c 2 t) (iblk m c 3 t) := by dsimp only [dats]

theorem before_0 (c : Dev nD) (t : Fin cfg0.N) (d) : (dats m 0 c).before 0 t d = iblk m c 0 t :=
  before_in_of0 m (dats m 0 c) (A_eq m c 0) (after_0 m c) t d
theorem before_1 (c : Dev nD) (t : Fin cfg0.N) (d) : (dats m 0 c).before 1 t d = iblk m c 1 t :=
  before_in_of1 m (dats m 0 c) (A_eq m c 1) (after_1 m c) t d
theorem before_2 (c : Dev nD) (t : Fin cfg0.N) (d) : (dats m 0 c).before 2 t d = iblk m c 2 t :=
  before_in_of2 m (dats m 0 c) (A_eq m c 2) (after_2 m c) t d
theorem before_3 (c : Dev nD) (t : Fin cfg0.N) (d) : (dats m 0 c).before 3 t d = iblk m c 3 t :=
  before_in_of3 m (dats m 0 c) (A_eq m c 3) (after_3 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBVals.lean ====
/-
  The buffers' contents after the region and after the host operations that follow it, on one core.

  The region changes one array only: the 32 × 1 × 128 partial sums, which end at what the pipeline's write-backs leave.
  The four host operations after it sum the partials and divide by 8192 · 8191.
-/
import proofs.«112609_g56977036148935_feedfinal_177_8_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at the region's exit: the partial sums at what the write-backs leave, every other buffer as
    entered. -/
def W2 (c : Dev nD) : Valuation τ sig (Elt F) :=
  Function.update (W1 m c) (Proc.devRef .tc main_v2) ((dats m 0 c).arrAt 4 cfg0.N)

/-- Core c's buffers at the end: after the four host operations that follow the region. -/
abbrev W3 (c : Dev nD) : Valuation τ sig (Elt F) := StableHlo.after hostOps1 (W2 m c)

end Cert.Kernel.Hand

end
-- ==== Proof.KBLaunch.lean ====
/-
  The run of the loss program on the TensorCores: two reshapes of the labels, the kernel region over its 32 grid
  points, then the sum of the partials and the division.

  Between the three stretches a core holds every buffer of the program whole, at contents named by a valuation: the
  launch memory, then after the reshapes, then with the partial sums at what the region's write-backs leave, then
  after the last four operations. At the region's entry the embedding matrix, which two input windows read, is split
  into its two half shares, one per window; at the exit the halves, both still at the launched contents, are joined
  again. The region changes no other array than the partial sums; no host operation writes an argument.
-/
import proofs.«112609_g56977036148935_feedfinal_177_8_alg».proof.Proof.KBVals
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A core's buffers, one by one -/

/-- Buffer b of core c whole, at its contents under the valuation W. -/
abbrev at_ (c : Dev nD) (W : Valuation τ sig (Elt F)) (b : Ref sig .tc) : sProp 𝕄 :=
  ((c : Thread nD τ).loc b) ↦{fullShare} W (Proc.devRef .tc b)

/-- The nine buffers of the program, held whole at a valuation, one by one. -/
theorem held_each (c : Dev nD) (W : Valuation τ sig (Elt F)) :
    (StableHlo.held (c : Thread nD τ) (Pipeline.ucRefs τ sig) W : sProp 𝕄)
      = iprop(at_ c W main_arg0 ∗ at_ c W main_arg1 ∗ at_ c W main_v0 ∗ at_ c W main_v1 ∗ at_ c W main_v2
          ∗ at_ c W main_cst ∗ at_ c W main_v3 ∗ at_ c W main_cst_0 ∗ at_ c W main_v4) := by
  rw [← Pipeline.unscopedBufs_held (Ix := Unit) (Name := ℕ) (U := UR sig nD τ) (Lvl := ℕ) c W]
  unfold unscopedBufs
  exact Idealize.SL.BI.bigSep_eq_bigSepL_of_eq [main_arg0, main_arg1, main_v0, main_v1, main_v2, main_cst, main_v3, main_cst_0, main_v4]
    (by decide) (by decide) _

/-- The pipeline's five windowed arrays at contents F, one by one: the embedding matrix twice, at its two half
    shares, the label column and row and the partial sums whole. -/
theorem arrays_each (c : Dev nD) (F' : (w : Fin cfg0.W) → Buf (Elt F) ((cfg0.win w).arr.view.loc (c.tc : Thread nD τ))) :
    ((dats m 0 c).arrays F' : sProp 𝕄)
      = iprop((((c : Thread nD τ).loc main_arg0) ↦{fullShare.left} F' 0) ∗ (((c : Thread nD τ).loc main_arg0) ↦{fullShare.right} F' 1)
          ∗ (((c : Thread nD τ).loc main_v0) ↦{fullShare} F' 2) ∗ (((c : Thread nD τ).loc main_v1) ↦{fullShare} F' 3)
          ∗ (((c : Thread nD τ).loc main_v2) ↦{fullShare} F' 4)) := by
  unfold Dat.arrays
  rw [bigSep_W0]
  rw [(arr_whole0 0).set_eq_univ, (arr_whole0 2).set_eq_univ, (arr_whole0 3).set_eq_univ, (arr_whole0 4).set_eq_univ]
  rfl

/-! ## What the region leaves unchanged -/

/-- An input window's array ends the region at its entry contents. -/
theorem fin_in0 (c : Dev nD) : (dats m 0 c).arrAt 0 cfg0.N = W1 m c (Proc.devRef .tc main_arg0) := ((dats m 0 c).arrAt_in 0 rfl _).trans (A_eq m c 0)
theorem fin_in1 (c : Dev nD) : (dats m 0 c).arrAt 1 cfg0.N = W1 m c (Proc.devRef .tc main_arg0) := ((dats m 0 c).arrAt_in 1 rfl _).trans (A_eq m c 1)
theorem fin_in2 (c : Dev nD) : (dats m 0 c).arrAt 2 cfg0.N = W1 m c (Proc.devRef .tc main_v0) := ((dats m 0 c).arrAt_in 2 rfl _).trans (A_eq m c 2)
theorem fin_in3 (c : Dev nD) : (dats m 0 c).arrAt 3 cfg0.N = W1 m c (Proc.devRef .tc main_v1) := ((dats m 0 c).arrAt_in 3 rfl _).trans (A_eq m c 3)

/-- At the region's exit every buffer but the partial sums holds what it held at entry, -/
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
/-- and the partial sums what the write-backs leave. -/
theorem W2_out (c : Dev nD) : W2 m c (Proc.devRef .tc main_v2) = (dats m 0 c).arrAt 4 cfg0.N := by
  unfold W2; exact Function.update_self _ _ _

/-! ## The thread states and the segments -/

/-- The prefetched tables' admissible contents: the pipeline has no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's dues,
    at nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over all the buffers, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The five buffers no window stages, which pass by the region at their entry contents. -/
abbrev passBy (c : Dev nD) : sProp 𝕄 :=
  iprop(at_ c (W1 m c) main_arg1 ∗ at_ c (W1 m c) main_cst ∗ at_ c (W1 m c) main_v3 ∗ at_ c (W1 m c) main_cst_0 ∗ at_ c (W1 m c) main_v4)

set_option backward.isDefEq.respectTransparency.types false in
/-- The region over the thread states: entered with every buffer at the contents after the reshapes, left with the
    partial sums at what the write-backs leave. The embedding matrix is halved between its two windows at entry and
    joined at exit; the generator register goes into the invariant and comes back; nothing is owed. -/
def reg : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := passBy m c
  hentry c := by
    rw [Pipeline.ownSems0_none, held_each, arrays_each]
    iintro ⟨⟨⟨Ha0, Ha1, Hv0, Hv1, Hv2, Hc, Hv3, Hc0, Hv4⟩, Hp, HO⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    isplitl [Hc]; · iexact Hc
    isplitl [Hv3]; · iexact Hv3
    isplitl [Hc0]; · iexact Hc0
    iexact Hv4
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_each, arrays_each, fin_in0, fin_in1, fin_in2, fin_in3]
    unfold at_
    rw [W2_of_ne m c main_arg0 (by decide), W2_of_ne m c main_arg1 (by decide), W2_of_ne m c main_v0 (by decide),
      W2_of_ne m c main_v1 (by decide), W2_out, W2_of_ne m c main_cst (by decide), W2_of_ne m c main_v3 (by decide),
      W2_of_ne m c main_cst_0 (by decide), W2_of_ne m c main_v4 (by decide)]
    iintro ⟨⟨Hl, Hr, Hv0, Hv1, Hv2⟩, HO, HY, ⟨Ha1, Hc, Hv3, Hc0, Hv4⟩⟩
    imodintro
    isplitr [HY HO]
    · isplitl [Hl Hr]
      · iapply (pointsTo_share (PosShare.mem_left_op_right fullShare)).2
        isplitl [Hl] <;> iassumption
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    isplitl [HY]; · iexact HY
    unfold Pipeline.Dat.owesAt Pipeline.owesWithin
    icases HO with ⟨%W, -, HO⟩; iexists W; iexact HO

/-! ## @main as three stretches, and the run -/

/-- The reshapes, the region, the last four operations. -/
abbrev segs : List (Pipeline.Seg (pcfgs (F := F)) adm (dats m) () defs₀ 𝒱₀ L lv) :=
  [ .host (hseg hostOps0 hostOps0_sub hostOps0_fresh (W0 m)),
    .region (reg m),
    .host (hseg hostOps1 hostOps1_sub hostOps1_fresh (W2 m)) ]

/-- @main is the run of the three stretches. -/
theorem main_run (c : Dev nD) : main (F := F) c = Pipeline.Seg.run (segs m) := (main_chain c).trans (by chain_rfl)

/-- A buffer of the program is among those a core holds between stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main on the TensorCores terminates, nothing
    faulting, and every final state holds every buffer of the program at the contents after the last stretch. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c =>
      show iprop(StableHlo.held (c : Thread nD τ) (Pipeline.ucRefs τ sig) (W3 m c) ∗ R c)
        ⊢ iprop((StableHlo.held (c : Thread nD τ) (Pipeline.ucRefs τ sig) (W3 m c) ∗ ∃ r, prngReg c r)
            ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- No operation of the program writes the embedding matrix, -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- nor the labels. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- The program runs to the end, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_main m ρ)

end Cert.Kernel.Hand

end
-- ==== Proof.KIBody.lean ====
/-
  One grid point of the loss kernel, as a triple over its five staging buffers.

  The body loads the row block (256 × 64), the whole embedding matrix (8192 × 64), the row block's labels
  (256 × 1) and all labels (1 × 8192), computes from them the 128 lane sums of the block's pair terms, and stores
  those into the output's buffer (1 × 1 × 128), which it covers whole. Nothing else is written: the four input
  buffers end as they were found.
-/
import proofs.«112609_g56977036148935_feedfinal_177_8_alg».proof.Proof.Gen.KernelIdeal.Launch
import proofs.«112609_g56977036148935_feedfinal_177_8_alg».proof.Proof.Gen.KernelIdeal.Skeleton
import proofs.«112609_g56977036148935_feedfinal_177_8_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's rectangles: each access is the whole buffer -/

abbrev rRows : Rect S256x64 := Rect.unit (s := S256x64) ![0, 0] S256x64.size inb_S256x64_S256x64_0_0
abbrev rAll : Rect S8192x64 := Rect.unit (s := S8192x64) ![0, 0] S8192x64.size inb_S8192x64_S8192x64_0_0
abbrev rLabRows : Rect S256x1 := Rect.unit (s := S256x1) ![0, 0] S256x1.size inb_S256x1_S256x1_0_0
abbrev rLabAll : Rect S1x8192 := Rect.unit (s := S1x8192) ![0, 0] S1x8192.size inb_S1x8192_S1x8192_0_0
abbrev rOut : Rect S1x1x128 := Rect.unit (s := S1x1x128) ![0, 0, 0] S1x1x128.size inb_S1x1x128_S1x1x128_0_0_0

/-- The 128 lane sums the body stores at grid coordinates i, as a function of what its four loads read. -/
def laneSums (i : grid0.Coords) (v0 : Vec F S256x64 .f32) (v1 : Vec F S8192x64 .f32) (v17 : Vec F S256x1 .i32) (v19 : Vec F S1x8192 .i32) :
    FVec F S1x1x128 .f32 :=
  k0_pay1 (k0_pay5 v17 v19) (k0_pay6 i v0 v1 v17 v19) (k0_pay7 v0 v1) (k0_pay8 (F := F))

/-- What the output's staging buffer holds after the body, from the four input buffers' contents: its one store. -/
def outBlock (i : grid0.Coords) (x0 : Vec F S256x64 .f32) (x1 : Vec F S8192x64 .f32) (x2 : Vec F S256x1 .i32) (x3 : Vec F S1x8192 .i32) :
    Vec F S1x1x128 .f32 :=
  View.canon [⟨rOut, laneSums i (View.ld x0 rRows) (View.ld x1 rAll) (View.ld x2 rLabRows) (View.ld x3 rLabAll)⟩]

/-- The one store covers the buffer. -/
theorem outCover (p0 : Vec F S1x1x128 .f32) (y : S1x1x128.Idx) :
    ∃ pc ∈ ([⟨rOut, p0⟩] : List (View.Piece (Elt F) S1x1x128 .f32)), y ∈ pc.1.set :=
  View.cover_of_tiled [⟨rOut, p0⟩] S1x1x128.size (by rfl) y

set_option maxHeartbeats 1000000 in
/-- The body on whole staging memrefs, the inputs at contents x0 … x3 and the output at anything, runs to the
    continuation holding the inputs as they were and the output at outBlock of them. -/
theorem sound_kernel (c : Dev nD) (E : Set ℕ) (i : grid0.Coords)
    (arg1 : Memref sig .tc .vmem S256x64 .f32) (harg1 : arg1.IsWhole) (arg2 : Memref sig .tc .vmem S8192x64 .f32) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S1x1x128 .f32) (harg5 : arg5.IsWhole)
    (x0 : Vec F S256x64 .f32) (x1 : Vec F S8192x64 .f32) (x2 : Vec F S256x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock i x0 x1 x2 x3)) -∗ K ⟨⟩))
      ⊢ wp frame (wpE (defs₀ (F := F)) Variants.none c none) E
          (cc0__loss_block_kernel i arg1 harg1 arg2 harg2 arg3 harg3 arg4 harg4 arg5 harg5) K := by
  simp only [cc0__loss_block_kernel_eq_skeleton]; unfold cc0__loss_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (outCover _)]
  unfold outBlock laneSums
  sl_unfold_run_names
  simp only [View.readAt_eq_ld]

end Cert.KernelIdeal.Hand

end
-- ==== Proof.KIData.lean ====
/-
  The loss kernel's pipeline on one core: what the region finds in its arrays, each window's block at a grid
  point, and the proof data of the pipeline.

  Grid point t stages rows 256·t … 256·t+255 of the embedding matrix (window 0) and of the label column (window 2),
  the whole matrix (window 1) and the whole label row (window 3), and writes back row t of the 32 × 1 × 128 partial
  sums (window 4). Windows 0 and 1 read ONE array, the embedding matrix: each holds half of it. The body only
  reads its four inputs, so each input's buffer holds its block at every point, fetched there or not.
-/
import proofs.«112609_g56977036148935_feedfinal_177_8_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents when the region is entered -/

/-- Core c's buffers at launch, -/
abbrev W0 (c : Dev nD) : Valuation τ sig (Elt F) := fun b => m (c, b)
/-- and after the two reshapes of the labels: what the region is entered from. -/
abbrev W1 (c : Dev nD) : Valuation τ sig (Elt F) := StableHlo.after hostOps0 (W0 m c)
/-- The same read at a TensorCore reference. -/
abbrev V (c : Dev nD) (b : Ref sig .tc) : Buf (Elt F) ((c : Thread nD τ).loc b) := W1 m c (Proc.devRef .tc b)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place: one statement per input window. -/
theorem before_in_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core c: the arrays as the region finds them; after the body at point t each input's buffer at
    its block and the output's at the lane sums of the input blocks; the invariant the scoped rest and the generator
    register, untouched; nothing owed; the embedding matrix held half by window 0 and half by window 1, the label
    arrays whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (iblk m c 0 t) (iblk m c 1 t) (iblk m c 2 t) (iblk m c 3 t) := by dsimp only [dats]

theorem before_0 (c : Dev nD) (t : Fin cfg0.N) (d) : (dats m 0 c).before 0 t d = iblk m c 0 t :=
  before_in_of0 m (dats m 0 c) (A_eq m c 0) (after_0 m c) t d
theorem before_1 (c : Dev nD) (t : Fin cfg0.N) (d) : (dats m 0 c).before 1 t d = iblk m c 1 t :=
  before_in_of1 m (dats m 0 c) (A_eq m c 1) (after_1 m c) t d
theorem before_2 (c : Dev nD) (t : Fin cfg0.N) (d) : (dats m 0 c).before 2 t d = iblk m c 2 t :=
  before_in_of2 m (dats m 0 c) (A_eq m c 2) (after_2 m c) t d
theorem before_3 (c : Dev nD) (t : Fin cfg0.N) (d) : (dats m 0 c).before 3 t d = iblk m c 3 t :=
  before_in_of3 m (dats m 0 c) (A_eq m c 3) (after_3 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIVals.lean ====
/-
  The buffers' contents after the region and after the host operations that follow it, on one core.

  The region changes one array only: the 32 × 1 × 128 partial sums, which end at what the pipeline's write-backs leave.
  The four host operations after it sum the partials and divide by 8192 · 8191.
-/
import proofs.«112609_g56977036148935_feedfinal_177_8_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at the region's exit: the partial sums at what the write-backs leave, every other buffer as
    entered. -/
def W2 (c : Dev nD) : Valuation τ sig (Elt F) :=
  Function.update (W1 m c) (Proc.devRef .tc main_v2) ((dats m 0 c).arrAt 4 cfg0.N)

/-- Core c's buffers at the end: after the four host operations that follow the region. -/
abbrev W3 (c : Dev nD) : Valuation τ sig (Elt F) := StableHlo.after hostOps1 (W2 m c)

end Cert.KernelIdeal.Hand

end
-- ==== Proof.KILaunch.lean ====
/-
  The run of the loss program on the TensorCores: two reshapes of the labels, the kernel region over its 32 grid
  points, then the sum of the partials and the division.

  Between the three stretches a core holds every buffer of the program whole, at contents named by a valuation: the
  launch memory, then after the reshapes, then with the partial sums at what the region's write-backs leave, then
  after the last four operations. At the region's entry the embedding matrix, which two input windows read, is split
  into its two half shares, one per window; at the exit the halves, both still at the launched contents, are joined
  again. The region changes no other array than the partial sums; no host operation writes an argument.
-/
import proofs.«112609_g56977036148935_feedfinal_177_8_alg».proof.Proof.KIVals
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A core's buffers, one by one -/

/-- Buffer b of core c whole, at its contents under the valuation W. -/
abbrev at_ (c : Dev nD) (W : Valuation τ sig (Elt F)) (b : Ref sig .tc) : sProp 𝕄 :=
  ((c : Thread nD τ).loc b) ↦{fullShare} W (Proc.devRef .tc b)

/-- The nine buffers of the program, held whole at a valuation, one by one. -/
theorem held_each (c : Dev nD) (W : Valuation τ sig (Elt F)) :
    (StableHlo.held (c : Thread nD τ) (Pipeline.ucRefs τ sig) W : sProp 𝕄)
      = iprop(at_ c W main_arg0 ∗ at_ c W main_arg1 ∗ at_ c W main_v0 ∗ at_ c W main_v1 ∗ at_ c W main_v2
          ∗ at_ c W main_cst ∗ at_ c W main_v3 ∗ at_ c W main_cst_0 ∗ at_ c W main_v4) := by
  rw [← Pipeline.unscopedBufs_held (Ix := Unit) (Name := ℕ) (U := UR sig nD τ) (Lvl := ℕ) c W]
  unfold unscopedBufs
  exact Idealize.SL.BI.bigSep_eq_bigSepL_of_eq [main_arg0, main_arg1, main_v0, main_v1, main_v2, main_cst, main_v3, main_cst_0, main_v4]
    (by decide) (by decide) _

/-- The pipeline's five windowed arrays at contents F, one by one: the embedding matrix twice, at its two half
    shares, the label column and row and the partial sums whole. -/
theorem arrays_each (c : Dev nD) (F' : (w : Fin cfg0.W) → Buf (Elt F) ((cfg0.win w).arr.view.loc (c.tc : Thread nD τ))) :
    ((dats m 0 c).arrays F' : sProp 𝕄)
      = iprop((((c : Thread nD τ).loc main_arg0) ↦{fullShare.left} F' 0) ∗ (((c : Thread nD τ).loc main_arg0) ↦{fullShare.right} F' 1)
          ∗ (((c : Thread nD τ).loc main_v0) ↦{fullShare} F' 2) ∗ (((c : Thread nD τ).loc main_v1) ↦{fullShare} F' 3)
          ∗ (((c : Thread nD τ).loc main_v2) ↦{fullShare} F' 4)) := by
  unfold Dat.arrays
  rw [bigSep_W0]
  rw [(arr_whole0 0).set_eq_univ, (arr_whole0 2).set_eq_univ, (arr_whole0 3).set_eq_univ, (arr_whole0 4).set_eq_univ]
  rfl

/-! ## What the region leaves unchanged -/

/-- An input window's array ends the region at its entry contents. -/
theorem fin_in0 (c : Dev nD) : (dats m 0 c).arrAt 0 cfg0.N = W1 m c (Proc.devRef .tc main_arg0) := ((dats m 0 c).arrAt_in 0 rfl _).trans (A_eq m c 0)
theorem fin_in1 (c : Dev nD) : (dats m 0 c).arrAt 1 cfg0.N = W1 m c (Proc.devRef .tc main_arg0) := ((dats m 0 c).arrAt_in 1 rfl _).trans (A_eq m c 1)
theorem fin_in2 (c : Dev nD) : (dats m 0 c).arrAt 2 cfg0.N = W1 m c (Proc.devRef .tc main_v0) := ((dats m 0 c).arrAt_in 2 rfl _).trans (A_eq m c 2)
theorem fin_in3 (c : Dev nD) : (dats m 0 c).arrAt 3 cfg0.N = W1 m c (Proc.devRef .tc main_v1) := ((dats m 0 c).arrAt_in 3 rfl _).trans (A_eq m c 3)

/-- At the region's exit every buffer but the partial sums holds what it held at entry, -/
theorem W2_of_ne (c : Dev nD) (b : Ref sig .tc) (hb : b ≠ main_v2) : W2 m c (Proc.devRef .tc b) = W1 m c (Proc.devRef .tc b) := by
  unfold W2; exact Function.update_of_ne (StableHlo.devRef_ne_of_ne hb) _ _
/-- and the partial sums what the write-backs leave. -/
theorem W2_out (c : Dev nD) : W2 m c (Proc.devRef .tc main_v2) = (dats m 0 c).arrAt 4 cfg0.N := by
  unfold W2; exact Function.update_self _ _ _

/-! ## The thread states and the segments -/

/-- The prefetched tables' admissible contents: the pipeline has no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the generator register at some state and the core's dues,
    at nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over all the buffers, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The five buffers no window stages, which pass by the region at their entry contents. -/
abbrev passBy (c : Dev nD) : sProp 𝕄 :=
  iprop(at_ c (W1 m c) main_arg1 ∗ at_ c (W1 m c) main_cst ∗ at_ c (W1 m c) main_v3 ∗ at_ c (W1 m c) main_cst_0 ∗ at_ c (W1 m c) main_v4)

set_option backward.isDefEq.respectTransparency.types false in
/-- The region over the thread states: entered with every buffer at the contents after the reshapes, left with the
    partial sums at what the write-backs leave. The embedding matrix is halved between its two windows at entry and
    joined at exit; the generator register goes into the invariant and comes back; nothing is owed. -/
def reg : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := passBy m c
  hentry c := by
    rw [Pipeline.ownSems0_none, held_each, arrays_each]
    iintro ⟨⟨⟨Ha0, Ha1, Hv0, Hv1, Hv2, Hc, Hv3, Hc0, Hv4⟩, Hp, HO⟩, -, -⟩
    ihave Hs := (pointsTo_share (PosShare.mem_left_op_right fullShare)).1 $$ Ha0
    icases Hs with ⟨Hl, Hr⟩
    imodintro
    isplitl [Hl Hr Hv0 Hv1 Hv2]
    · isplitl [Hl]; · iexact Hl
      isplitl [Hr]; · iexact Hr
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    isplitl [Hc]; · iexact Hc
    isplitl [Hv3]; · iexact Hv3
    isplitl [Hc0]; · iexact Hc0
    iexact Hv4
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_each, arrays_each, fin_in0, fin_in1, fin_in2, fin_in3]
    unfold at_
    rw [W2_of_ne m c main_arg0 (by decide), W2_of_ne m c main_arg1 (by decide), W2_of_ne m c main_v0 (by decide),
      W2_of_ne m c main_v1 (by decide), W2_out, W2_of_ne m c main_cst (by decide), W2_of_ne m c main_v3 (by decide),
      W2_of_ne m c main_cst_0 (by decide), W2_of_ne m c main_v4 (by decide)]
    iintro ⟨⟨Hl, Hr, Hv0, Hv1, Hv2⟩, HO, HY, ⟨Ha1, Hc, Hv3, Hc0, Hv4⟩⟩
    imodintro
    isplitr [HY HO]
    · isplitl [Hl Hr]
      · iapply (pointsTo_share (PosShare.mem_left_op_right fullShare)).2
        isplitl [Hl] <;> iassumption
      isplitl [Ha1]; · iexact Ha1
      isplitl [Hv0]; · iexact Hv0
      isplitl [Hv1]; · iexact Hv1
      isplitl [Hv2]; · iexact Hv2
      isplitl [Hc]; · iexact Hc
      isplitl [Hv3]; · iexact Hv3
      isplitl [Hc0]; · iexact Hc0
      iexact Hv4
    isplitl [HY]; · iexact HY
    unfold Pipeline.Dat.owesAt Pipeline.owesWithin
    icases HO with ⟨%W, -, HO⟩; iexists W; iexact HO

/-! ## @main as three stretches, and the run -/

/-- The reshapes, the region, the last four operations. -/
abbrev segs : List (Pipeline.Seg (pcfgs (F := F)) adm (dats m) () defs₀ 𝒱₀ L lv) :=
  [ .host (hseg hostOps0 hostOps0_sub hostOps0_fresh (W0 m)),
    .region (reg m),
    .host (hseg hostOps1 hostOps1_sub hostOps1_fresh (W2 m)) ]

/-- @main is the run of the three stretches. -/
theorem main_run (c : Dev nD) : main (F := F) c = Pipeline.Seg.run (segs m) := (main_chain c).trans (by chain_rfl)

/-- A buffer of the program is among those a core holds between stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main on the TensorCores terminates, nothing
    faulting, and every final state holds every buffer of the program at the contents after the last stretch. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c =>
      show iprop(StableHlo.held (c : Thread nD τ) (Pipeline.ucRefs τ sig) (W3 m c) ∗ R c)
        ⊢ iprop((StableHlo.held (c : Thread nD τ) (Pipeline.ucRefs τ sig) (W3 m c) ∗ ∃ r, prngReg c r)
            ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- No operation of the program writes the embedding matrix, -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

/-- nor the labels. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- The program runs to the end, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_main m ρ)

end Cert.KernelIdeal.Hand

end
-- ==== Proof.KIArgs.lean ====
/-
  The kernel program's two arguments as launched on a core, at the ideal instance: the embedding matrix by row and
  coordinate, and the labels by row.
-/
import proofs.«112609_g56977036148935_feedfinal_177_8_alg».proof.Proof.Gen.KernelIdeal
import Idealize.ShloMosaic.PureOps.Ideal
import Idealize.ShloMosaic.Lib.ValueIdx

noncomputable section

namespace Cert.KernelIdeal.Hand

open Cert.KernelIdeal Cert.KernelIdeal.Gen
open Idealize.ShloMosaic Idealize.ShloMosaic.TcCoe

/-- The embedding matrix as launched on core c, by row and coordinate; -/
def xOf (m : (ℓ : Loc nD τ sig) → Buf (Elt Ideal) ℓ) (c : Dev nD) : Fin 8192 → Fin 64 → EReal :=
  fun R k => m ((c : Thread nD τ).loc main_arg0) (ValueIdx.ix2 R k)

/-- and the labels. -/
def labOf (m : (ℓ : Loc nD τ sig) → Buf (Elt Ideal) ℓ) (c : Dev nD) : Fin 8192 → BitVec 32 :=
  fun R => m ((c : Thread nD τ).loc main_arg1) (ValueIdx.ix1 R)

end Cert.KernelIdeal.Hand

end
-- ==== Proof.Spec.lean ====
/-
  The contrastive loss over all ordered pairs of 8192 embeddings of dimension 64, as one function of the
  embedding matrix and the labels, on the extended reals.

  For two rows u and v: the squared norms |u|² and |v|², the Gram entry <u, v>, the squared distance clipped at
  zero d²(u,v) = max(|u|² + |v|² − 2<u, v>, 0), the hinge max(1 − √d², 0), and the pair's term: d² when the labels
  agree and the pair is off the diagonal, plus the squared hinge when the labels differ. The loss is the sum of the
  terms over all ordered pairs of rows divided by 8192 · 8191. The float literals stay as the words both programs
  print. Row 256·t + r is row r of row block t; column 128·q + l is lane l of lane group q.
-/
import Idealize.ShloMosaic.PureOps.Ideal
import Idealize.ShloMosaic.Lib.ValueIdx

noncomputable section

namespace Cert.Spec

open Idealize.ShloMosaic

/-- The literals 2, 1, 0 and 8192 · 8191 as the words the programs print. -/
abbrev two : EReal := Ideal.ofBits .f32 0x40000000#32
abbrev one : EReal := Ideal.ofBits .f32 0x3F800000#32
abbrev zero : EReal := Ideal.ofBits .f32 0x00000000#32
abbrev pairs : EReal := Ideal.ofBits .f32 0x4C7FF800#32

/-- The squared norm of a row. -/
def sqNormV (u : Fin 64 → EReal) : EReal := ∑ k : Fin 64, u k * u k

/-- The Gram entry of two rows. -/
def gramV (u v : Fin 64 → EReal) : EReal := ∑ k : Fin 64, u k * v k

/-- The squared distance of two rows, clipped at zero. -/
def dist2V (u v : Fin 64 → EReal) : EReal := max (sqNormV u + sqNormV v - two * gramV u v) zero

/-- The hinge max(1 − √d², 0) of two rows. -/
def hingeV (u v : Fin 64 → EReal) : EReal := max (one - Ideal.sqrt (dist2V u v)) zero

/-- One ordered pair's term, from the two rows, their labels, and whether the pair is off the diagonal: the squared
    distance for an off-diagonal pair of equal labels, plus the squared hinge for a pair of different labels. -/
def termV (u v : Fin 64 → EReal) (a b : BitVec 32) (off : Prop) [Decidable off] : EReal :=
  (if a = b ∧ off then dist2V u v else zero) + (if a ≠ b then hingeV u v * hingeV u v else zero)

/-- The term of the ordered pair of rows R and C of the matrix x under the labels lab. -/
def pairTerm (x : Fin 8192 → Fin 64 → EReal) (lab : Fin 8192 → BitVec 32) (R C : Fin 8192) : EReal :=
  termV (x R) (x C) (lab R) (lab C) (R ≠ C)

/-- The sum of the terms over all ordered pairs. -/
def total (x : Fin 8192 → Fin 64 → EReal) (lab : Fin 8192 → BitVec 32) : EReal :=
  ∑ R : Fin 8192, ∑ C : Fin 8192, pairTerm x lab R C

/-- The loss. -/
def loss (x : Fin 8192 → Fin 64 → EReal) (lab : Fin 8192 → BitVec 32) : EReal :=
  Ideal.div (total x lab) pairs

/-- Row r of row block t. -/
def rowOf (t : Fin 32) (r : Fin 256) : Fin 8192 := ⟨256 * t.val + r.val, by omega⟩

/-- Lane l of lane group q. -/
def colOf (q : Fin 64) (l : Fin 128) : Fin 8192 := ⟨128 * q.val + l.val, by omega⟩

/-- The square root of a nonnegative extended real squares back to it: √y · √y = y (√⊤ = ⊤, ⊤ · ⊤ = ⊤). -/
theorem sqrt_mul_sqrt_of_nonneg {y : EReal} (hy : 0 ≤ y) : Ideal.sqrt y * Ideal.sqrt y = y := by
  induction y using EReal.rec with
  | bot => exact absurd hy (by simp)
  | top => simp [Ideal.sqrt_top, EReal.top_mul_top]
  | coe r =>
    have hr : 0 ≤ r := by exact_mod_cast hy
    rw [Ideal.sqrt_coe, if_neg (not_lt.mpr hr), ← EReal.coe_mul, Real.mul_self_sqrt hr]

end Cert.Spec

end
-- ==== Proof.KVElem.lean ====
/-
  The body's elementwise values at row r of the block and column C of the matrix, at the ideal instance: the clipped
  squared distance, the two label masks (as what a select on them picks), one minus the distance, and the zero.
-/
import proofs.«112609_g56977036148935_feedfinal_177_8_alg».proof.Proof.KIBody
import proofs.«112609_g56977036148935_feedfinal_177_8_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

variable (i : grid0.Coords) (v0 : Vec Ideal S256x64 .f32) (v1 : Vec Ideal S8192x64 .f32)
  (v17 : Vec Ideal S256x1 .i32) (v19 : Vec Ideal S1x8192 .i32) (r : Fin 256) (C : Fin 8192)

/-! ## The matrix product's operand indices, axis by axis -/

private theorem gramLhs0 (j : S256x8192.Idx) (q : dot_S256x64_S8192x64_S256x8192_1_1_0_0_n_n.contr.Idx) :
    (dot_S256x64_S8192x64_S256x8192_1_1_0_0_n_n.lhsIdx j q 0).val = (j 0).val := by
  unfold DotDims.lhsIdx
  rw [dif_neg (show ¬(0 : Fin S256x64.rank) ∈ dot_S256x64_S8192x64_S256x8192_1_1_0_0_n_n.lhsBatch by decide), dif_pos (show (0 : Fin S256x64.rank) ∈ dot_S256x64_S8192x64_S256x8192_1_1_0_0_n_n.lhsNonContracting by decide)]
  rfl
private theorem gramLhs1 (j : S256x8192.Idx) (q : dot_S256x64_S8192x64_S256x8192_1_1_0_0_n_n.contr.Idx) :
    (dot_S256x64_S8192x64_S256x8192_1_1_0_0_n_n.lhsIdx j q 1).val = (q ⟨0, by decide⟩).val :=
  dot_S256x64_S8192x64_S256x8192_1_1_0_0_n_n.lhsIdx_val_of_single rfl j q
private theorem gramRhs0 (j : S256x8192.Idx) (q : dot_S256x64_S8192x64_S256x8192_1_1_0_0_n_n.contr.Idx) :
    (dot_S256x64_S8192x64_S256x8192_1_1_0_0_n_n.rhsIdx j q 0).val = (j 1).val := by
  unfold DotDims.rhsIdx
  rw [dif_neg (show ¬(0 : Fin S8192x64.rank) ∈ dot_S256x64_S8192x64_S256x8192_1_1_0_0_n_n.rhsBatch by decide), dif_pos (show (0 : Fin S8192x64.rank) ∈ dot_S256x64_S8192x64_S256x8192_1_1_0_0_n_n.rhsNonContracting by decide)]
  rfl
private theorem gramRhs1 (j : S256x8192.Idx) (q : dot_S256x64_S8192x64_S256x8192_1_1_0_0_n_n.contr.Idx) :
    (dot_S256x64_S8192x64_S256x8192_1_1_0_0_n_n.rhsIdx j q 1).val = (q ⟨0, by decide⟩).val :=
  dot_S256x64_S8192x64_S256x8192_1_1_0_0_n_n.rhsIdx_val_of_single rfl j q

/-- The product onto the zero accumulator at (r, C): the sum over k of row r of the block times row C of the matrix. -/
private theorem gram_apply (x0 : FVec Ideal S256x64 .f32) (x1 : FVec Ideal S8192x64 .f32) (r : Fin 256) (C : Fin 8192) :
    matmul (F := Ideal) dot_S256x64_S8192x64_S256x8192_1_1_0_0_n_n none x0 x1 (constant (F := Ideal) S256x8192 .f32 0x00000000#32) (ix2 r C)
      = ∑ k : Fin 64, x0 (ix2 r k) * x1 (ix2 C k) := by
  simp only [matmul]
  rw [Ideal.matmul_constant_zero_apply, ← Equiv.sum_comp (ValueIdx.contrEquiv1 dot_S256x64_S8192x64_S256x8192_1_1_0_0_n_n 64 rfl rfl).symm]
  refine Finset.sum_congr rfl fun k _ => ?_
  have hk := ValueIdx.contrEquiv1_symm_val dot_S256x64_S8192x64_S256x8192_1_1_0_0_n_n 64 rfl rfl k
  have el : dot_S256x64_S8192x64_S256x8192_1_1_0_0_n_n.lhsIdx (ix2 r C) ((ValueIdx.contrEquiv1 dot_S256x64_S8192x64_S256x8192_1_1_0_0_n_n 64 rfl rfl).symm k) = ix2 r k := funext fun a => Fin.ext (by
    match a with
    | ⟨0, _⟩ => exact gramLhs0 _ _
    | ⟨1, _⟩ => exact (gramLhs1 _ _).trans hk)
  have er : dot_S256x64_S8192x64_S256x8192_1_1_0_0_n_n.rhsIdx (ix2 r C) ((ValueIdx.contrEquiv1 dot_S256x64_S8192x64_S256x8192_1_1_0_0_n_n 64 rfl rfl).symm k) = ix2 C k := funext fun a => Fin.ext (by
    match a with
    | ⟨0, _⟩ => exact gramRhs0 _ _
    | ⟨1, _⟩ => exact (gramRhs1 _ _).trans hk)
  rw [el, er]

/-! ## The two row sums, and the column and row forms they are spread from -/

/-- The sum along axis 1 of a 256 × 64 block at r. -/
private theorem rowSum256_apply (x : FVec Ideal S256x64 .f32) (r : Fin 256) :
    multiReduction (F := Ideal) .add [1] S256 x 0x00000000#32 reduces_S256x64_S256 (.inl rfl) rfl (ix1 r) = ∑ k : Fin 64, x (ix2 r k) := by
  refine (Ideal.multiReduction_add_single x 0x00000000#32 reduces_S256x64_S256 (.inl rfl) rfl (ix1 r)).trans ?_
  refine Finset.sum_congr rfl fun k _ => ?_
  exact congrArg x (funext fun a => Fin.ext (by match a with | ⟨0, _⟩ => rfl | ⟨1, _⟩ => rfl))

/-- The sum along axis 1 of the 8192 × 64 matrix at C. -/
private theorem rowSum8192_apply (x : FVec Ideal S8192x64 .f32) (C : Fin 8192) :
    multiReduction (F := Ideal) .add [1] S8192 x 0x00000000#32 reduces_S8192x64_S8192 (.inl rfl) rfl (ix1 C) = ∑ k : Fin 64, x (ix2 C k) := by
  refine (Ideal.multiReduction_add_single x 0x00000000#32 reduces_S8192x64_S8192 (.inl rfl) rfl (ix1 C)).trans ?_
  refine Finset.sum_congr rfl fun k _ => ?_
  exact congrArg x (funext fun a => Fin.ext (by match a with | ⟨0, _⟩ => rfl | ⟨1, _⟩ => rfl))

/-- A vector of length a cast to a column reads, at (i, u), the vector at i. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread over b columns reads, at (p, c), the column at p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The clipped squared distance of row r of the block and row C of the matrix. -/
theorem pay2_apply : k0_pay2 (F := Ideal) v0 v1 (ix2 r C) = Cert.Spec.dist2V (fun k => v0 (ix2 r k)) (fun k => v1 (ix2 C k)) := by
  unfold k0_pay2 Cert.Spec.dist2V Cert.Spec.sqNormV Cert.Spec.gramV
  simp only [maximumf_apply, subf_apply, addf_apply, mulf_apply, broadcast_apply]
  rw [broadcastTo_a1_ab_apply, broadcastTo_1b_ab_apply, shapeCast_a_a1_apply, shapeCast_a_1a_apply, rowSum256_apply,
    rowSum8192_apply, gram_apply]
  simp only [mulf_apply]
  rfl

/-! ## The masks -/

/-- The bit of a truth value is 1 exactly when it is true. -/
private theorem ofBool_eq_one_iff (p : Bool) : BitVec.ofBool p = (1 : BitVec 1) ↔ p = true := by
  cases p <;> decide

/-- The bit "p and not q" is 1 exactly when p is true and q is false. -/
private theorem ofBool_and_not_eq_one_iff (p q : Bool) :
    BitVec.ofBool p &&& (BitVec.ofBool q ^^^ 1#1) = (1 : BitVec 1) ↔ (p = true ∧ q = false) := by
  cases p <;> cases q <;> decide

/-- A select on the bit of "a differs from b" picks by whether they differ. -/
private theorem select_cmpi_ne {α : Type} (a b : BitVec 32) (A B : α) :
    Scalar.select (IntOp.cmpi .ne a b) A B = if a ≠ b then A else B := by
  simp only [Scalar.select, IntOp.cmpi]
  refine if_congr ?_ rfl rfl
  exact (ofBool_eq_one_iff _).trans bne_iff_ne

/-- A select on the bit of "a equals b, and not x equals y" picks by that condition. -/
private theorem select_eq_and_not_eq {α : Type} (a b x y : BitVec 32) (A B : α) :
    Scalar.select (IntOp.andi (IntOp.cmpi .eq a b) (IntOp.xori (IntOp.cmpi .eq x y) 1#1)) A B
      = if a = b ∧ x ≠ y then A else B := by
  simp only [Scalar.select, IntOp.cmpi, IntOp.andi, IntOp.xori]
  refine if_congr ?_ rfl rfl
  exact (ofBool_and_not_eq_one_iff _ _).trans (and_congr beq_iff_eq beq_eq_false_iff_ne)

/-- The row number 256 t + r of the block's row r and the column number C, as 32-bit words, are equal exactly when
    the numbers are: nothing wraps below 2^32. -/
private theorem diag_iff (t : ℕ) (ht : t < 32) (r : Fin 256) (C : Fin 8192) :
    IntOp.addi (Scalar.muli (BitVec.ofNat 32 t) 256#32) (BitVec.ofNat 32 r.val) = BitVec.ofNat 32 C.val
      ↔ Cert.Spec.rowOf ⟨t, ht⟩ r = C := by
  unfold IntOp.addi Scalar.muli IntOp.muli Cert.Spec.rowOf
  rw [Fin.ext_iff, ← BitVec.toNat_inj]
  simp only [BitVec.toNat_add, BitVec.toNat_mul, BitVec.toNat_ofNat]
  have := r.isLt; have := C.isLt
  omega

/-- A select on the different-labels mask picks by whether the two labels differ. -/
theorem pay5_select {α : Type} (A B : α) :
    Scalar.select (k0_pay5 (F := Ideal) v17 v19 (ix2 r C)) A B = if v17 (ix2 r 0) ≠ v19 (ix2 0 C) then A else B := by
  unfold k0_pay5 k0_pay3 k0_pay4
  simp only [shapeCast_self, cmpi, broadcastTo_a1_ab_apply, broadcastTo_1b_ab_apply]
  exact select_cmpi_ne _ _ A B

/-- The positive part: the clipped squared distance where the labels agree off the diagonal, else zero. -/
theorem pay6_apply :
    k0_pay6 (F := Ideal) i v0 v1 v17 v19 (ix2 r C)
      = if v17 (ix2 r 0) = v19 (ix2 0 C) ∧ Cert.Spec.rowOf ⟨(i 0).val, (i 0).isLt⟩ r ≠ C
          then Cert.Spec.dist2V (fun k => v0 (ix2 r k)) (fun k => v1 (ix2 C k)) else Cert.Spec.zero := by
  unfold k0_pay6 k0_pay3 k0_pay4
  simp only [shapeCast_self, select_apply, andi, xori, cmpi, addi, broadcast_apply, constantI_apply,
    broadcastTo_a1_ab_apply, broadcastTo_1b_ab_apply, pay2_apply]
  have e0 : iota .tc S256x8192 32 [0] iota_S256x8192_d0_w32 (ix2 r C) = BitVec.ofNat 32 r.val :=
    iota_single_apply .tc S256x8192 32 0 iota_S256x8192_d0_w32 (ix2 r C)
  have e1 : iota .tc S256x8192 32 [1] iota_S256x8192_d1_w32 (ix2 r C) = BitVec.ofNat 32 C.val :=
    iota_single_apply .tc S256x8192 32 1 iota_S256x8192_d1_w32 (ix2 r C)
  rw [e0, e1, select_eq_and_not_eq]
  refine if_congr (and_congr Iff.rfl (not_congr ?_)) rfl rfl
  exact diag_iff (i 0).val (i 0).isLt r C

/-- One minus the distance. -/
theorem pay7_apply :
    k0_pay7 (F := Ideal) v0 v1 (ix2 r C) = Cert.Spec.one - Ideal.sqrt (Cert.Spec.dist2V (fun k => v0 (ix2 r k)) (fun k => v1 (ix2 C k))) := by
  unfold k0_pay7
  refine (subf_apply _ _ _).trans ?_
  refine congrArg (Cert.Spec.one - Ideal.sqrt ·) ?_
  exact pay2_apply v0 v1 r C

/-- The zero the hinge is clipped at. -/
theorem pay8_apply : k0_pay8 (F := Ideal) (ix2 r C) = Cert.Spec.zero := rfl

end Cert.KernelIdeal.Hand

end
-- ==== Proof.KVReduce.lean ====
/-
  The body's two reductions at the ideal instance: lane l of the stored vector is the sum over the 64 lane groups q and
  the 256 rows r of the summand at row r and column 128 q + l, the summand being the positive part plus the squared
  clipped hinge where the labels differ.
-/
import proofs.«112609_g56977036148935_feedfinal_177_8_alg».proof.Proof.KIBody
import proofs.«112609_g56977036148935_feedfinal_177_8_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The row reduction's inserted index: row r over column C. -/
private theorem lift_rows (C : Fin 8192) (r : Fin 256) :
    reduces_S256x8192_S8192.lift (ix1 C) r = ix2 r C := by
  funext c
  match c with
  | ⟨0, _⟩ => exact Fin.ext rfl
  | ⟨1, _⟩ => exact Fin.ext rfl

/-- The group reduction's inserted index: group q over lane l. -/
private theorem lift_groups (l : Fin 128) (q : Fin 64) :
    reduces_S1x64x128_S1x128.lift (ix2 (0 : Fin 1) l) q = ix3 (0 : Fin 1) q l := by
  funext c
  match c with
  | ⟨0, _⟩ => exact Fin.ext rfl
  | ⟨1, _⟩ => exact Fin.ext rfl
  | ⟨2, _⟩ => exact Fin.ext rfl

/-- The sum over the 256 rows, read at column C. -/
private theorem rowSum_apply (w : FVec Ideal S256x8192 .f32) (C : Fin 8192) :
    multiReduction (F := Ideal) .add [0] S8192 w 0x00000000#32 reduces_S256x8192_S8192 (.inl rfl) rfl (ix1 C)
      = ∑ r : Fin 256, w (ix2 r C) := by
  refine (Ideal.multiReduction_add_single w _ reduces_S256x8192_S8192 (.inl rfl) rfl (ix1 C)).trans ?_
  exact Finset.sum_congr rfl fun r _ => congrArg w (lift_rows C r)

/-- The sum over the 64 lane groups, read at lane l. -/
private theorem groupSum_apply (w : FVec Ideal S1x64x128 .f32) (l : Fin 128) :
    multiReduction (F := Ideal) .add [1] S1x128 w 0x00000000#32 reduces_S1x64x128_S1x128 (.inl rfl) rfl (ix2 (0 : Fin 1) l)
      = ∑ q : Fin 64, w (ix3 (0 : Fin 1) q l) := by
  refine (Ideal.multiReduction_add_single w _ reduces_S1x64x128_S1x128 (.inl rfl) rfl (ix2 (0 : Fin 1) l)).trans ?_
  exact Finset.sum_congr rfl fun q _ => congrArg w (lift_groups l q)

/-- The two reshapes of the 8192 column sums into 64 groups of 128 lanes: column 128 q + l goes to (0, q, l). -/
private theorem regroup_apply (w : FVec Ideal S8192 .f32) (q : Fin 64) (l : Fin 128) :
    shapeCast S1x64x128 (shapeCast S1x8192 w shapeCasts_S8192_S1x8192) shapeCasts_S1x8192_S1x64x128 (ix3 (0 : Fin 1) q l)
      = w (ix1 (Cert.Spec.colOf q l)) := by
  refine (shapeCast_apply _ shapeCasts_S1x8192_S1x64x128 (ix3 (0 : Fin 1) q l) (ix2 (0 : Fin 1) (Cert.Spec.colOf q l)) ?_).trans ?_
  · rw [Shape.rowMajor_val_two, Shape.rowMajor_val_three]
    show 0 * 8192 + (128 * q.val + l.val) = (0 * 64 + q.val) * 128 + l.val
    omega
  · refine shapeCast_apply _ shapeCasts_S8192_S1x8192 (ix2 (0 : Fin 1) (Cert.Spec.colOf q l)) (ix1 (Cert.Spec.colOf q l)) ?_
    rw [Shape.rowMajor_val_one, Shape.rowMajor_val_two]
    show 128 * q.val + l.val = 0 * 8192 + (128 * q.val + l.val)
    omega

/-- The last reshape adds a unit axis: (0, 0, l) reads (0, l). -/
private theorem addUnit_apply (w : FVec Ideal S1x128 .f32) (l : Fin 128) :
    shapeCast S1x1x128 w shapeCasts_S1x128_S1x1x128 (ix3 (0 : Fin 1) (0 : Fin 1) l) = w (ix2 (0 : Fin 1) l) := by
  refine shapeCast_apply _ shapeCasts_S1x128_S1x1x128 (ix3 (0 : Fin 1) (0 : Fin 1) l) (ix2 (0 : Fin 1) l) ?_
  rw [Shape.rowMajor_val_two, Shape.rowMajor_val_three]
  show 0 * 128 + l.val = (0 * 1 + 0) * 128 + l.val
  omega

/-- Lane l of the stored vector, from the four block-sized vectors the reductions are fed. -/
theorem pay1_apply (v34 : IVec S256x8192 1) (v36 v39 v40 : FVec Ideal S256x8192 .f32) (l : Fin 128) :
    k0_pay1 (F := Ideal) v34 v36 v39 v40 (ix3 0 0 l)
      = ∑ q : Fin 64, ∑ r : Fin 256,
          (v36 (ix2 r (Cert.Spec.colOf q l))
            + Scalar.select (v34 (ix2 r (Cert.Spec.colOf q l)))
                (max (v39 (ix2 r (Cert.Spec.colOf q l))) (v40 (ix2 r (Cert.Spec.colOf q l)))
                  * max (v39 (ix2 r (Cert.Spec.colOf q l))) (v40 (ix2 r (Cert.Spec.colOf q l))))
                Cert.Spec.zero) := by
  unfold k0_pay1
  refine (addUnit_apply _ l).trans ?_
  refine (groupSum_apply _ l).trans ?_
  refine Finset.sum_congr rfl fun q _ => ?_
  refine (regroup_apply _ q l).trans ?_
  refine (rowSum_apply _ (Cert.Spec.colOf q l)).trans ?_
  rfl

end Cert.KernelIdeal.Hand

end
-- ==== Proof.KVPayload.lean ====
/-
  The 128 lane sums of one grid point, read at a lane, at the ideal instance.

  Lane l of the body's stored vector is the sum, over the 64 lane groups q and the 256 rows r of the block, of the
  pair term of row r of the block against column 128 q + l of the whole matrix: the positive part is the clipped
  squared distance where the labels agree off the diagonal, the negative part the squared hinge where they differ.
-/
import proofs.«112609_g56977036148935_feedfinal_177_8_alg».proof.Proof.KVElem
import proofs.«112609_g56977036148935_feedfinal_177_8_alg».proof.Proof.KVReduce

noncomputable section

namespace Cert.KernelIdeal.Hand

open Cert.KernelIdeal Cert.KernelIdeal.Gen
open Idealize.ShloMosaic Idealize.ShloMosaic.ValueIdx

/-- Lane l of the lane sums at grid coordinates i, from what the body's four loads read. -/
theorem laneSums_apply (i : grid0.Coords) (v0 : Vec Ideal S256x64 .f32) (v1 : Vec Ideal S8192x64 .f32)
    (v17 : Vec Ideal S256x1 .i32) (v19 : Vec Ideal S1x8192 .i32) (l : Fin 128) :
    laneSums (F := Ideal) i v0 v1 v17 v19 (ix3 0 0 l)
      = ∑ q : Fin 64, ∑ r : Fin 256,
          Cert.Spec.termV (fun k => v0 (ix2 r k)) (fun k => v1 (ix2 (Cert.Spec.colOf q l) k))
            (v17 (ix2 r 0)) (v19 (ix2 0 (Cert.Spec.colOf q l)))
            (Cert.Spec.rowOf ⟨(i 0).val, (i 0).isLt⟩ r ≠ Cert.Spec.colOf q l) := by
  unfold laneSums
  rw [pay1_apply]
  refine Finset.sum_congr rfl fun q _ => Finset.sum_congr rfl fun r _ => ?_
  rw [pay6_apply, pay5_select, pay7_apply, pay8_apply]
  rfl

end Cert.KernelIdeal.Hand

end
-- ==== Proof.KVArray.lean ====
/-
  The partial-sum array after the region, at the ideal instance: entry (t, 0, l) is the sum, over lane groups q and
  rows r of block t, of the pair term of row 256 t + r against column 128 q + l of the matrix as launched.

  Point t of the grid reads rows 256 t … 256 t + 255 of the matrix and of the label column, the whole matrix and the
  whole label row, and writes back row t of the 32 × 1 × 128 array; the label column and row are the labels as
  launched, reshaped. So what point t writes back is block t of one array of sums, the 32 blocks fill the array, and
  the array ends at those sums.
-/
import proofs.«112609_g56977036148935_feedfinal_177_8_alg».proof.Proof.KIVals
import proofs.«112609_g56977036148935_feedfinal_177_8_alg».proof.Proof.KIArgs
import proofs.«112609_g56977036148935_feedfinal_177_8_alg».proof.Proof.KVPayload

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## The arrays the region finds -/

/-- No host operation before the region writes the embedding matrix: the region finds it as launched. -/
private theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- The label column is the labels as launched, reshaped 8192 to 8192 × 1; -/
private theorem V_v0 (c : Dev nD) : (V m c main_v0 : S8192x1.Idx → BitVec 32)
    = shapeCast S8192x1 (m ((c : Thread nD τ).loc main_arg1) : S8192.Idx → BitVec 32) shapeCasts_S8192_S8192x1 := by
  dsimp only [V, W1, W0, hostOps0]; after_results; rfl

/-- the label row the same, reshaped to 1 × 8192. -/
private theorem V_v1 (c : Dev nD) : (V m c main_v1 : S1x8192.Idx → BitVec 32)
    = shapeCast S1x8192 (m ((c : Thread nD τ).loc main_arg1) : S8192.Idx → BitVec 32) shapeCasts_S8192_S1x8192 := by
  dsimp only [V, W1, W0, hostOps0]; after_results; rfl

/-- Entry (R, 0) of the label column is label R. -/
private theorem V_v0_apply (c : Dev nD) (R : Fin 8192) :
    (V m c main_v0 : S8192x1.Idx → BitVec 32) (ix2 R 0) = labOf m c R := by
  refine (congrFun (V_v0 m c) (ix2 R 0)).trans ?_
  refine shapeCast_apply _ _ _ (ix1 R) ?_
  rw [Shape.rowMajor_val_one, Shape.rowMajor_val_two]
  show R.val = R.val * 1 + 0
  omega

/-- Entry (0, C) of the label row is label C. -/
private theorem V_v1_apply (c : Dev nD) (C : Fin 8192) :
    (V m c main_v1 : S1x8192.Idx → BitVec 32) (ix2 0 C) = labOf m c C :=
  (congrFun (V_v1 m c) (ix2 0 C)).trans (shapeCast_a_1a_apply _ _ 0 C)

/-! ## The windows' blocks, element by element -/

/-- The printed index maps over the grid: windows 0, 2 and 4 sit at block t on their first axis, windows 1 and 3 at
    block 0, every other block index is 0; and the grid's one coordinate at point t is t. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ ((grid0.coords t) 0).val = t.val :=
  (by decide +kernel : ∀ t : Fin grid0.N, _)

/-- A grid point as a row-block number. -/
private def blkOf (t : Fin cfg0.N) : Fin 32 := ⟨t.val, Nat.lt_of_lt_of_eq t.isLt N_0⟩

/-- Row r, coordinate k of window 0's block at point t is row 256 t + r of the matrix as launched. -/
private theorem iblk0_apply (c : Dev nD) (t : Fin cfg0.N) (r : Fin 256) (k : Fin 64) :
    (iblk m c 0 t : Vec Ideal S256x64 .f32) (ix2 r k) = xOf m c (Cert.Spec.rowOf (blkOf t) r) k := by
  obtain ⟨e0, e1, -⟩ := idx_facts t
  unfold iblk
  rw [View.read_apply]
  show V m c main_arg0 _ = _
  rw [V_arg0]
  unfold xOf
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 64 + 1 * k.val = k.val; rw [e1]; omega

/-- Window 1's block at any point is the whole matrix as launched. -/
private theorem iblk1_apply (c : Dev nD) (t : Fin cfg0.N) (R : Fin 8192) (k : Fin 64) :
    (iblk m c 1 t : Vec Ideal S8192x64 .f32) (ix2 R k) = xOf m c R k := by
  obtain ⟨-, -, e0, e1, -⟩ := idx_facts t
  unfold iblk
  rw [View.read_apply]
  show V m c main_arg0 _ = _
  rw [V_arg0]
  unfold xOf
  congr 1
  funext a
  apply Fin.ext
  match a with
  | ⟨0, _⟩ => show win0_1.index t (0 : Fin 2) * 8192 + 1 * R.val = R.val; rw [e0]; omega
  | ⟨1, _⟩ => show win0_1.index t (1 : Fin 2) * 64 + 1 * k.val = k.val; rw [e1]; omega

/-- Row r of window 2's block at point t is label 256 t + r. -/
private theorem iblk2_apply (c : Dev nD) (t : Fin cfg0.N) (r : Fin 256) :
    (iblk m c 2 t : Vec Ideal S256x1 .i32) (ix2 r 0) = labOf m c (Cert.Spec.rowOf (blkOf t) r) := by
  obtain ⟨-, -, -, -, e0, e1, -⟩ := idx_facts t
  unfold iblk
  rw [View.read_apply]
  refine Eq.trans ?_ (V_v0_apply m c (Cert.Spec.rowOf (blkOf t) r))
  show V m c main_v0 _ = V m c main_v0 _
  congr 1
  funext a
  apply Fin.ext
  match a with
  | ⟨0, _⟩ => show win0_2.index t (0 : Fin 2) * 256 + 1 * r.val = 256 * t.val + r.val; rw [e0]; omega
  | ⟨1, _⟩ => show win0_2.index t (1 : Fin 2) * 1 + 1 * 0 = 0; rw [e1]

/-- Window 3's block at any point is the whole label row. -/
private theorem iblk3_apply (c : Dev nD) (t : Fin cfg0.N) (C : Fin 8192) :
    (iblk m c 3 t : Vec Ideal S1x8192 .i32) (ix2 0 C) = labOf m c C := by
  obtain ⟨-, -, -, -, -, -, e0, e1, -⟩ := idx_facts t
  unfold iblk
  rw [View.read_apply]
  refine Eq.trans ?_ (V_v1_apply m c C)
  show V m c main_v1 _ = V m c main_v1 _
  congr 1
  funext a
  apply Fin.ext
  match a with
  | ⟨0, _⟩ => show win0_3.index t (0 : Fin 2) * 1 + 1 * 0 = 0; rw [e0]
  | ⟨1, _⟩ => show win0_3.index t (1 : Fin 2) * 8192 + 1 * C.val = C.val; rw [e1]; omega

/-! ## The partial sums, point by point -/

/-- Entry (t, 0, l) of the partial sums: lane l's sum over the lane groups and over the rows of block t. -/
private def partialAt (c : Dev nD) (t : Fin 32) (l : Fin 128) : EReal :=
  ∑ q : Fin 64, ∑ r : Fin 256, Cert.Spec.pairTerm (xOf m c) (labOf m c) (Cert.Spec.rowOf t r) (Cert.Spec.colOf q l)

/-- The whole 32 × 1 × 128 array of them. -/
private def partials (c : Dev nD) : S32x1x128.Idx → EReal :=
  fun j => partialAt m c ⟨(j 0).val, (j 0).isLt⟩ ⟨(j 2).val, (j 2).isLt⟩

/-- A pair's term depends on the rows, the labels and the off-diagonal condition only up to equality and equivalence. -/
private theorem termV_congr {u u' v v' : Fin 64 → EReal} {a a' b b' : BitVec 32} {p p' : Prop} [Decidable p] [Decidable p']
    (hu : u = u') (hv : v = v') (ha : a = a') (hb : b = b') (hp : p ↔ p') :
    Cert.Spec.termV u v a b p = Cert.Spec.termV u' v' a' b' p' := by
  subst hu hv ha hb
  unfold Cert.Spec.termV
  rw [if_congr (and_congr Iff.rfl hp) rfl rfl]

/-- Lane l of what the body leaves at point t is entry (t, 0, l) of the partial sums. -/
private theorem point_apply (c : Dev nD) (t : Fin cfg0.N) (l : Fin 128) :
    laneSums (F := Ideal) (grid0.coords t) (iblk m c 0 t) (iblk m c 1 t) (iblk m c 2 t) (iblk m c 3 t) (ix3 0 0 l)
      = partialAt m c (blkOf t) l := by
  have hc : (⟨((grid0.coords t) 0).val, ((grid0.coords t) 0).isLt⟩ : Fin 32) = blkOf t :=
    Fin.ext (idx_facts t).2.2.2.2.2.2.2.2.2.2.2
  refine (laneSums_apply (grid0.coords t) (iblk m c 0 t) (iblk m c 1 t) (iblk m c 2 t) (iblk m c 3 t) l).trans ?_
  unfold partialAt
  refine Finset.sum_congr rfl fun q _ => Finset.sum_congr rfl fun r _ => ?_
  unfold Cert.Spec.pairTerm
  refine termV_congr (funext fun k => iblk0_apply m c t r k) (funext fun k => iblk1_apply m c t (Cert.Spec.colOf q l) k)
    (iblk2_apply m c t r) (iblk3_apply m c t (Cert.Spec.colOf q l)) ?_
  rw [hc]

/-! ## From the blocks to the array -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- What the body leaves in the output's buffer at point t, element by element. -/
private theorem outBlock_apply (c : Dev nD) (t : Fin cfg0.N) (y : S1x1x128.Idx) :
    outBlock (F := Ideal) (grid0.coords t) (iblk m c 0 t) (iblk m c 1 t) (iblk m c 2 t) (iblk m c 3 t) y
      = partialAt m c (blkOf t) ⟨(y 2).val, (y 2).isLt⟩ := by
  unfold outBlock
  rw [View.canon_unit_zero hz3]
  simp only [View.ld_unit_zero (S := S256x64) hz2, View.ld_unit_zero (S := S8192x64) hz2,
    View.ld_unit_zero (S := S256x1) hz2, View.ld_unit_zero (S := S1x8192) hz2]
  have hy : y = ix3 0 0 (⟨(y 2).val, (y 2).isLt⟩ : Fin 128) := by
    funext a
    apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
  rw [hy]
  exact point_apply m c t _

/-- What point t writes back is its block of the partial sums. -/
private theorem flushed_eq (c : Dev nD) (t : Fin cfg0.N) :
    (dats (F := Ideal) m 0 c).flushed 4 t = ((cfg0.win 4).blk t).view.read (Elt Ideal) (partials m c) := by
  obtain ⟨-, -, -, -, -, -, -, -, e0, e1, e2, -⟩ := idx_facts t
  show (cfg0.win 4).cut (grid0.coords t) ((dats m 0 c).after 4 t) = _
  rw [after_4]
  funext y
  show outBlock (F := Ideal) (grid0.coords t) (iblk m c 0 t) (iblk m c 1 t) (iblk m c 2 t) (iblk m c 3 t) y
    = partials m c (((cfg0.win 4).blk t).view.emb y)
  rw [outBlock_apply]
  unfold partials
  congr 1
  · apply Fin.ext
    show t.val = win0_4.index t (0 : Fin 3) * 1 + 1 * (y 0).val
    have h : (y 0).val < 1 := (y 0).isLt
    rw [e0]; omega
  · apply Fin.ext
    show (y 2).val = win0_4.index t (2 : Fin 3) * 128 + 1 * (y 2).val
    rw [e2]; omega

/-- An index of the array is in point t's block iff each coordinate is in the block's range on its axis. -/
private theorem mem_blk (t : Fin cfg0.N) (i : S32x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v2).slice (win0_4.rect t)).set ↔ _
  rw [View.set_slice_whole, Rect.mem_set_unit]
  exact Iff.rfl

/-- Entry (t, 0, l) lies in point t's block, and every point writes its block back. -/
private theorem cover (i : S32x1x128.Idx) :
    ∃ t : Fin cfg0.N, (cfg0.win 4).flush t = true ∧ i ∈ ((cfg0.win 4).blk t).view.set := by
  obtain ⟨t, ht⟩ : ∃ t : Fin cfg0.N, t.val = (i 0).val :=
    ⟨⟨(i 0).val, Nat.lt_of_lt_of_eq (i 0).isLt N_0.symm⟩, rfl⟩
  obtain ⟨-, -, -, -, -, -, -, -, e0, e1, e2, -⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 1 ≤ (i 1).val ∧ (i 1).val < win0_4.index t (1 : Fin 3) * 1 + 1
    have h : (i 1).val < 1 := (i 1).isLt
    rw [e1]; omega
  | ⟨2, _⟩ =>
    show win0_4.index t (2 : Fin 3) * 128 ≤ (i 2).val ∧ (i 2).val < win0_4.index t (2 : Fin 3) * 128 + 128
    have h : (i 2).val < 128 := (i 2).isLt
    rw [e2]; omega

/-- The partial-sum array after the region. -/
private theorem final (c : Dev nD) : (dats (F := Ideal) m 0 c).arrAt 4 cfg0.N = partials m c :=
  (dats (F := Ideal) m 0 c).arrAt_eq_of_cover 4 (partials m c) (fun t _ => flushed_eq m c t) cover

/-- What the write-backs leave in the partial-sum array, index by index. -/
theorem partials_apply (m : (ℓ : Loc nD τ sig) → Buf (Elt Ideal) ℓ) (c : Dev nD) (t : Fin 32) (l : Fin 128) :
    (dats (F := Ideal) m 0 c).arrAt 4 cfg0.N (ix3 t 0 l)
      = ∑ q : Fin 64, ∑ r : Fin 256, Cert.Spec.pairTerm (xOf m c) (labOf m c) (Cert.Spec.rowOf t r) (Cert.Spec.colOf q l) := by
  rw [final]
  rfl

end Cert.KernelIdeal.Hand

end
-- ==== Proof.SpecSums.lean ====
/-
  Regrouping the sum over all ordered pairs of rows: by row block and row within it, and by lane and lane group.
-/
import proofs.«112609_g56977036148935_feedfinal_177_8_alg».proof.Proof.Spec

noncomputable section

namespace Cert.Spec

open Idealize.ShloMosaic

/-- The pairs (row block t, row r of the block) are in bijection with the 8192 rows by (t, r) ↦ 256 t + r; the inverse
    is R ↦ (R / 256, R % 256). -/
private def rowEquiv : Fin 32 × Fin 256 ≃ Fin 8192 where
  toFun p := rowOf p.1 p.2
  invFun R := (⟨R.val / 256, by have := R.isLt; omega⟩, ⟨R.val % 256, by omega⟩)
  left_inv p := by
    obtain ⟨⟨t, ht⟩, ⟨r, hr⟩⟩ := p
    refine Prod.ext (Fin.ext ?_) (Fin.ext ?_)
    · show (256 * t + r) / 256 = t
      omega
    · show (256 * t + r) % 256 = r
      omega
  right_inv R := by
    refine Fin.ext ?_
    show 256 * (R.val / 256) + R.val % 256 = R.val
    omega

/-- The pairs (lane group q, lane l of the group) are in bijection with the 8192 columns by (q, l) ↦ 128 q + l; the
    inverse is C ↦ (C / 128, C % 128). -/
private def colEquiv : Fin 64 × Fin 128 ≃ Fin 8192 where
  toFun p := colOf p.1 p.2
  invFun C := (⟨C.val / 128, by have := C.isLt; omega⟩, ⟨C.val % 128, by omega⟩)
  left_inv p := by
    obtain ⟨⟨q, hq⟩, ⟨l, hl⟩⟩ := p
    refine Prod.ext (Fin.ext ?_) (Fin.ext ?_)
    · show (128 * q + l) / 128 = q
      omega
    · show (128 * q + l) % 128 = l
      omega
  right_inv C := by
    refine Fin.ext ?_
    show 128 * (C.val / 128) + C.val % 128 = C.val
    omega

/-- A sum over the rows is the double sum over row blocks and rows of the block. -/
private theorem sum_rows (h : Fin 8192 → EReal) :
    (∑ t : Fin 32, ∑ r : Fin 256, h (rowOf t r)) = ∑ R : Fin 8192, h R :=
  (Fintype.sum_prod_type' (fun t r => h (rowOf t r))).symm.trans (Equiv.sum_comp rowEquiv h)

/-- A sum over the columns is the double sum over lane groups and lanes of the group. -/
private theorem sum_cols (h : Fin 8192 → EReal) :
    (∑ q : Fin 64, ∑ l : Fin 128, h (colOf q l)) = ∑ C : Fin 8192, h C :=
  (Fintype.sum_prod_type' (fun q l => h (colOf q l))).symm.trans (Equiv.sum_comp colEquiv h)

/-- A sum over all pairs (R, C) of 8192 rows is the sum over row blocks t, lanes l, lane groups q and rows r of the
    block, of the pair (row r of block t, lane l of group q): addition on the extended reals is commutative and
    associative, and (t, r) ↦ 256 t + r, (q, l) ↦ 128 q + l are bijections onto the 8192 rows. -/
theorem sum_regroup (f : Fin 8192 → Fin 8192 → EReal) :
    (∑ t : Fin 32, ∑ l : Fin 128, ∑ q : Fin 64, ∑ r : Fin 256, f (rowOf t r) (colOf q l)) = ∑ R : Fin 8192, ∑ C : Fin 8192, f R C := by
  rw [← sum_rows (fun R => ∑ C : Fin 8192, f R C)]
  refine Finset.sum_congr rfl (fun t _ => ?_)
  calc (∑ l : Fin 128, ∑ q : Fin 64, ∑ r : Fin 256, f (rowOf t r) (colOf q l))
      = ∑ q : Fin 64, ∑ l : Fin 128, ∑ r : Fin 256, f (rowOf t r) (colOf q l) := Finset.sum_comm
    _ = ∑ q : Fin 64, ∑ r : Fin 256, ∑ l : Fin 128, f (rowOf t r) (colOf q l) :=
        Finset.sum_congr rfl (fun q _ => Finset.sum_comm)
    _ = ∑ r : Fin 256, ∑ q : Fin 64, ∑ l : Fin 128, f (rowOf t r) (colOf q l) := Finset.sum_comm
    _ = ∑ r : Fin 256, ∑ C : Fin 8192, f (rowOf t r) C :=
        Finset.sum_congr rfl (fun r _ => sum_cols (fun C => f (rowOf t r) C))

/-- The indices of an n0 × 1 × n2 array are in bijection with the pairs of a first and a last coordinate: the middle
    coordinate has only the value 0. -/
private def idxEquiv3 {n0 n2 : Nat} : (⟨3, ![n0, 1, n2]⟩ : Shape).Idx ≃ Fin n0 × Fin n2 where
  toFun i := (i 0, i 2)
  invFun p := ValueIdx.ix3 p.1 (0 : Fin 1) p.2
  left_inv i := by
    funext a
    match a with
    | ⟨0, _⟩ => rfl
    | ⟨1, _⟩ => exact Subsingleton.elim (α := Fin 1) _ _
    | ⟨2, _⟩ => rfl
  right_inv _ := rfl

/-- A sum over the indices of a 32 × 1 × 128 array is the double sum over its first and last coordinates. -/
theorem sum_idx_32x1x128 (g : (⟨3, ![32, 1, 128]⟩ : Shape).Idx → EReal) :
    (∑ j : (⟨3, ![32, 1, 128]⟩ : Shape).Idx, g j) = ∑ t : Fin 32, ∑ l : Fin 128, g (ValueIdx.ix3 t 0 l) := by
  rw [← Equiv.sum_comp (idxEquiv3 (n0 := 32) (n2 := 128)).symm g, Fintype.sum_prod_type]
  rfl

end Cert.Spec

end
-- ==== Proof.KVLoss.lean ====
/-
  The kernel program's result at the ideal instance is the loss of the launched matrix and labels.

  After the region the partial-sum array holds, at (t, 0, l), the pair terms of the rows of block t against the
  columns of lane l summed; the host sums all 32 · 128 partials, which regroups to the sum over all ordered pairs, and
  divides by 8192 · 8191.
-/
import proofs.«112609_g56977036148935_feedfinal_177_8_alg».proof.Proof.KILaunch
import proofs.«112609_g56977036148935_feedfinal_177_8_alg».proof.Proof.KVArray
import proofs.«112609_g56977036148935_feedfinal_177_8_alg».proof.Proof.SpecSums
import Idealize.ShloMosaic.Lib.StableHlo.Run
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.ShloMosaic.StableHlo

/-- The partial-sum array after the region, as a function on its 32 × 1 × 128 indices. -/
abbrev partials (m : (ℓ : Loc nD τ sig) → Buf (Elt Ideal) ℓ) (c : Dev nD) : S32x1x128.Idx → EReal :=
  (dats (F := Ideal) m 0 c).arrAt 4 cfg0.N

/-- The sum of all the partials is the sum of the pair terms over all ordered pairs of rows. -/
theorem sum_partials (m : (ℓ : Loc nD τ sig) → Buf (Elt Ideal) ℓ) (c : Dev nD) :
    (∑ j : S32x1x128.Idx, partials m c j) = Cert.Spec.total (xOf m c) (labOf m c) := by
  rw [Cert.Spec.sum_idx_32x1x128]
  unfold Cert.Spec.total
  rw [← Cert.Spec.sum_regroup]
  exact Finset.sum_congr rfl fun t _ => Finset.sum_congr rfl fun l _ => partials_apply m c t l

/-- The host's sum of an array from zero, divided by 8192 · 8191, from the array's total. -/
theorem divide_sum (y0 : FVec Ideal S32x1x128 .f32) (T : EReal) (h : (∑ j : S32x1x128.Idx, y0 j) = T) :
    Host.divf (F := Ideal) (Host.reduceAdd (F := Ideal) y0 (constant S_ .f32 0x00000000#32) reducesTo_S32x1x128_S_d0_1_2 h_S_)
        (constant S_ .f32 0x4C7FF800#32)
      = fun _ => Ideal.div T (Ideal.ofBits .f32 0x4C7FF800#32) := by
  funext i
  show Ideal.div (Host.reduceAdd (F := Ideal) y0 (constant S_ .f32 0x00000000#32) reducesTo_S32x1x128_S_d0_1_2 h_S_ i) (Ideal.ofBits .f32 0x4C7FF800#32) = _
  congr 1
  simp only [Host.reduceAdd, Ideal.hostReduceAdd_def]
  rw [Ideal.hostReduceAdd_total reducesTo_S32x1x128_S_d0_1_2 (fun b => b.elim0) y0 _ i, h]
  show Ideal.ofBits .f32 0x00000000#32 + T = T
  rw [Ideal.ofBits_zero_f32, zero_add]

/-- The result buffer after the last four operations holds the loss. -/
theorem kernel_loss (m : (ℓ : Loc nD τ sig) → Buf (Elt Ideal) ℓ) (c : Dev nD) :
    W3 (F := Ideal) m c (Proc.devRef .tc main_v4) = fun _ => Cert.Spec.loss (xOf m c) (labOf m c) := by
  show StableHlo.after hostOps1 (W2 m c) (Proc.devRef .tc main_v4) = _
  after_results
  rw [W2_out]
  exact divide_sum (partials m c) _ (sum_partials m c)

end Cert.KernelIdeal.Hand

end
-- ==== Proof.RefLoss.lean ====
/-
  The reference's result at the ideal instance is the loss of the launched matrix and labels.
-/
import proofs.«112609_g56977036148935_feedfinal_177_8_alg».proof.Proof.Gen.ReferenceIdeal.Read
import proofs.«112609_g56977036148935_feedfinal_177_8_alg».proof.Proof.Spec

noncomputable section

namespace Cert.ReferenceIdeal.RefValue

open Cert.ReferenceIdeal Cert.ReferenceIdeal.Gen
open Idealize.ShloMosaic Idealize.ShloMosaic.ValueIdx

open Cert.ReferenceIdeal.Read in
/-- The row sum of squares at row R is the squared norm of row R. -/
private theorem sq_apply (x0 : (⟨S8192x64, .f32⟩ : BufTy).Contents (Elt Ideal)) (R : Fin 8192) :
    val_main_v1 (F := Ideal) x0 (ix1 R) = Cert.Spec.sqNormV (fun k => x0 (ix2 R k)) := by
  rw [val_main_v1_apply, val_main_cst_apply, Ideal.ofBits_def, Ideal.ofBits_zero_f32, zero_add]
  unfold Cert.Spec.sqNormV
  refine Finset.sum_congr rfl fun k _ => ?_
  rw [val_main_v0_apply, Ideal.mulf_def]
  have e : idx_main_v1 (ix1 R) k = ix2 R k :=
    funext fun a => Fin.ext (by match a with | ⟨0, _⟩ => rfl | ⟨1, _⟩ => rfl)
  rw [e]

open Cert.ReferenceIdeal.Read in
/-- The product of the matrix with its transpose at (R, C) is the Gram entry of rows R and C. -/
private theorem gram_apply (x0 : (⟨S8192x64, .f32⟩ : BufTy).Contents (Elt Ideal)) (R C : Fin 8192) :
    val_main_v8 (F := Ideal) x0 (ix2 R C)
      = Cert.Spec.gramV (fun k => x0 (ix2 R k)) (fun k => x0 (ix2 C k)) := by
  rw [val_main_v8_apply]
  unfold Cert.Spec.gramV
  refine Finset.sum_congr rfl fun k _ => ?_
  rw [val_main_v7_apply]
  have e1 : lidx_main_v8 (ix2 R C) k = ix2 R k :=
    funext fun a => Fin.ext (by match a with | ⟨0, _⟩ => rfl | ⟨1, _⟩ => rfl)
  have e2 : idx_main_v7 (ridx_main_v8 (ix2 R C) k) = ix2 C k :=
    funext fun a => Fin.ext (by match a with | ⟨0, _⟩ => rfl | ⟨1, _⟩ => rfl)
  rw [e1, e2]

open Cert.ReferenceIdeal.Read in
/-- The clipped squared distance at (R, C). -/
private theorem d2_apply (x0 : (⟨S8192x64, .f32⟩ : BufTy).Contents (Elt Ideal)) (R C : Fin 8192) :
    val_main_v13 (F := Ideal) x0 (ix2 R C)
      = Cert.Spec.dist2V (fun k => x0 (ix2 R k)) (fun k => x0 (ix2 C k)) := by
  rw [val_main_v13_apply, val_main_v11_apply, val_main_v6_apply, val_main_v4_apply, val_main_v2_apply,
    val_main_v5_apply, val_main_v3_apply, val_main_v10_apply, val_main_v9_apply, val_main_cst_0_apply,
    val_main_v12_apply, val_main_cst_1_apply, gram_apply]
  have e1 : idx_main_v2 (idx_main_v4 (ix2 R C)) = ix1 R :=
    funext fun a => Fin.ext (by match a with | ⟨0, _⟩ => rfl)
  have e2 : idx_main_v3 (idx_main_v5 (ix2 R C)) = ix1 C :=
    funext fun a => Fin.ext (by match a with | ⟨0, _⟩ => rfl)
  rw [e1, e2, sq_apply, sq_apply]
  simp only [Ideal.maximumf_def, Ideal.subf_def, Ideal.addf_def, Ideal.mulf_def, Ideal.ofBits_def]
  rfl

/-- An equality comparison of two words as a bit. -/
private theorem cmpi_eq_ite (a b : BitVec 32) : IntOp.cmpi .eq a b = if a = b then 1#1 else 0#1 := by
  unfold IntOp.cmpi
  by_cases h : a = b
  · subst h; simp
  · rw [if_neg h]
    have : (a == b) = false := by rw [beq_eq_false_iff_ne]; exact h
    simp only [this]; rfl

/-- A disequality comparison of two words as a bit. -/
private theorem cmpi_ne_ite (a b : BitVec 32) : IntOp.cmpi .ne a b = if a ≠ b then 1#1 else 0#1 := by
  unfold IntOp.cmpi
  by_cases h : a = b
  · subst h; simp
  · rw [if_pos h]
    have : (a != b) = true := by rw [bne_iff_ne]; exact h
    simp only [this]; rfl

/-- A select on a decided bit is the conditional. -/
private theorem select_ite {α : Type} (p : Prop) [Decidable p] (a b : α) :
    Scalar.select (if p then 1#1 else 0#1) a b = if p then a else b := by
  by_cases h : p
  · rw [if_pos h, if_pos h, select_one]
  · rw [if_neg h, if_neg h, select_zero]

open Cert.ReferenceIdeal.Read in
/-- The diagonal mask at (R, C): the row number plus zero equals the column number exactly on the diagonal
    (both are below 8192, so nothing wraps at 32 bits). -/
private theorem eye_apply (R C : Fin 8192) :
    val_main_v18 (F := Ideal) (ix2 R C) = if R = C then 1#1 else 0#1 := by
  rw [val_main_v18_apply, val_main_v17_apply, val_main_v14_apply, val_main_v16_apply, val_main_c_apply,
    val_main_v15_apply, cmpi_eq_ite]
  show (if IntOp.addi (BitVec.ofNat 32 R.val) 0#32 = BitVec.ofNat 32 C.val then 1#1 else 0#1) = _
  unfold IntOp.addi
  rw [BitVec.add_zero]
  have hiff : BitVec.ofNat 32 R.val = BitVec.ofNat 32 C.val ↔ R = C := by
    constructor
    · intro hh
      have h2 := congrArg BitVec.toNat hh
      simp only [BitVec.toNat_ofNat] at h2
      have hR := R.isLt
      have hC := C.isLt
      exact Fin.ext (by omega)
    · intro hh; rw [hh]
  by_cases h : R = C
  · rw [if_pos h, if_pos (hiff.mpr h)]
  · rw [if_neg h, if_neg (fun hh => h (hiff.mp hh))]

open Cert.ReferenceIdeal.Read in
/-- The labels broadcast along rows and columns, read at (R, C). -/
private theorem lab_apply (x1 : (⟨S8192, .i32⟩ : BufTy).Contents (Elt Ideal)) (R C : Fin 8192) :
    val_main_v23 (F := Ideal) x1 (ix2 R C) = x1 (ix1 R) ∧ val_main_v24 (F := Ideal) x1 (ix2 R C) = x1 (ix1 C)
    ∧ val_main_v30 (F := Ideal) x1 (ix2 R C) = x1 (ix1 R) ∧ val_main_v31 (F := Ideal) x1 (ix2 R C) = x1 (ix1 C) := by
  have e1 : idx_main_v21 (idx_main_v23 (ix2 R C)) = ix1 R :=
    funext fun a => Fin.ext (by match a with | ⟨0, _⟩ => rfl)
  have e2 : idx_main_v22 (idx_main_v24 (ix2 R C)) = ix1 C :=
    funext fun a => Fin.ext (by match a with | ⟨0, _⟩ => rfl)
  have e3 : idx_main_v28 (idx_main_v30 (ix2 R C)) = ix1 R :=
    funext fun a => Fin.ext (by match a with | ⟨0, _⟩ => rfl)
  have e4 : idx_main_v29 (idx_main_v31 (ix2 R C)) = ix1 C :=
    funext fun a => Fin.ext (by match a with | ⟨0, _⟩ => rfl)
  refine ⟨?_, ?_, ?_, ?_⟩
  · rw [val_main_v23_apply, val_main_v21_apply, e1]
  · rw [val_main_v24_apply, val_main_v22_apply, e2]
  · rw [val_main_v30_apply, val_main_v28_apply, e3]
  · rw [val_main_v31_apply, val_main_v29_apply, e4]

open Cert.ReferenceIdeal.Read in
/-- The distance at (R, C): the square root of one on the diagonal, of the clipped squared distance off it. -/
private theorem d_apply (x0 : (⟨S8192x64, .f32⟩ : BufTy).Contents (Elt Ideal)) (R C : Fin 8192) :
    val_main_v20 (F := Ideal) x0 (ix2 R C)
      = Ideal.sqrt (if R = C then Cert.Spec.one
          else Cert.Spec.dist2V (fun k => x0 (ix2 R k)) (fun k => x0 (ix2 C k))) := by
  rw [val_main_v20_apply, val_main_v19_apply, eye_apply, select_ite, val_main_call0_v1_apply,
    val_main_call0_v0_apply, val_main_cst_2_apply, d2_apply, Ideal.hostUnary_sqrt_def, Ideal.ofBits_def]

open Cert.ReferenceIdeal.Read in
/-- The summand at (R, C) is the term of the ordered pair (R, C). On the diagonal both masks are off (the pair is
    not off-diagonal, and a label does not differ from itself), so both sides are zero plus zero whatever the
    distance there. Off the diagonal the distance is the root of the clipped squared distance, which is
    nonnegative, so its square is the clipped squared distance. -/
private theorem term_apply (x0 : (⟨S8192x64, .f32⟩ : BufTy).Contents (Elt Ideal))
    (x1 : (⟨S8192, .i32⟩ : BufTy).Contents (Elt Ideal)) (R C : Fin 8192) :
    val_main_v41 (F := Ideal) x0 x1 (ix2 R C)
      = Cert.Spec.pairTerm (fun R k => x0 (ix2 R k)) (fun R => x1 (ix1 R)) R C := by
  obtain ⟨l1, l2, l3, l4⟩ := lab_apply x1 R C
  have hnot : ~~~(if R = C then 1#1 else 0#1 : BitVec 1) = if R ≠ C then 1#1 else 0#1 := by
    by_cases h : R = C
    · rw [if_pos h, if_neg (not_not.mpr h)]; decide
    · rw [if_neg h, if_pos h]; decide
  have hand : ∀ (p q : Prop) [Decidable p] [Decidable q],
      IntOp.andi (if p then 1#1 else 0#1 : BitVec 1) (if q then 1#1 else 0#1) = if p ∧ q then 1#1 else 0#1 := by
    intro p q _ _
    by_cases hp : p <;> by_cases hq : q <;> simp [hp, hq, IntOp.andi]
  rw [val_main_v41_apply, val_main_v34_apply, val_main_v40_apply, val_main_v27_apply, val_main_v25_apply,
    val_main_v26_apply, val_main_v32_apply, l1, l2, l3, l4, eye_apply, cmpi_eq_ite, cmpi_ne_ite, hnot, hand,
    select_ite, select_ite, val_main_v33_apply, val_main_v39_apply, val_main_v38_apply, val_main_v36_apply,
    val_main_v35_apply, val_main_cst_4_apply, val_main_v37_apply, val_main_cst_5_apply,
    val_main_call1_v1_apply, val_main_call1_v0_apply, val_main_cst_3_apply,
    val_main_call2_v1_apply, val_main_call2_v0_apply, val_main_cst_6_apply, d_apply]
  simp only [Ideal.maximumf_def, Ideal.subf_def, Ideal.addf_def, Ideal.mulf_def, Ideal.ofBits_def]
  unfold Cert.Spec.pairTerm Cert.Spec.termV
  by_cases h : R = C
  · subst h
    rw [if_neg (fun hh => hh.2 rfl), if_neg (fun hh => hh rfl), if_neg (fun hh => hh.2 rfl),
      if_neg (fun hh => hh rfl)]
  · rw [if_neg h]
    have hnn : (0 : EReal) ≤ Cert.Spec.dist2V (fun k => x0 (ix2 R k)) (fun k => x0 (ix2 C k)) := by
      unfold Cert.Spec.dist2V
      refine le_trans (le_of_eq ?_) (le_max_right _ _)
      exact Ideal.ofBits_zero_f32.symm
    rw [Cert.Spec.sqrt_mul_sqrt_of_nonneg hnn]
    rfl

open Cert.ReferenceIdeal.Read in
/-- The sum over all of the 8192 × 8192 summands is the sum of the terms over all ordered pairs. -/
private theorem total_apply (x0 : (⟨S8192x64, .f32⟩ : BufTy).Contents (Elt Ideal))
    (x1 : (⟨S8192, .i32⟩ : BufTy).Contents (Elt Ideal)) (i : S_.Idx) :
    val_main_v42 (F := Ideal) x0 x1 i
      = Cert.Spec.total (fun R k => x0 (ix2 R k)) (fun R => x1 (ix1 R)) := by
  rw [val_main_v42_apply, val_main_cst_7_apply, Ideal.ofBits_def, Ideal.ofBits_zero_f32, zero_add, sum_idx2]
  unfold Cert.Spec.total
  refine Finset.sum_congr rfl fun R _ => Finset.sum_congr rfl fun C _ => ?_
  exact term_apply x0 x1 R C

/-- The reference's last stage, as a function of its two arguments, is the loss. -/
theorem result_eq (x0 : (⟨S8192x64, .f32⟩ : BufTy).Contents (Elt Ideal)) (x1 : (⟨S8192, .i32⟩ : BufTy).Contents (Elt Ideal)) :
    Cert.ReferenceIdeal.Read.val_main_v43 (F := Ideal) x0 x1
      = fun _ => Cert.Spec.loss (fun R k => x0 (ix2 R k)) (fun R => x1 (ix1 R)) := by
  funext i
  rw [Cert.ReferenceIdeal.Read.val_main_v43_apply, Ideal.hostDivf_def, total_apply,
    Cert.ReferenceIdeal.Read.val_main_cst_8_apply, Ideal.ofBits_def]
  rfl

end Cert.ReferenceIdeal.RefValue

end
-- ==== Proof.lean ====
/-
  The certificate of the blocked contrastive-loss kernel against its jnp reference.

  Both programs compute, from 8192 embeddings of dimension 64 and their labels, the sum over all ordered pairs of
  rows of the pair's term — the clipped squared distance for an off-diagonal pair of equal labels, the squared hinge
  max(1 − √d², 0)² for a pair of different labels — divided by 8192 · 8191 (Proof/Spec.lean).

  The kernel takes the rows 256 at a time: grid point t stages row block t and the whole matrix (the SAME array,
  through two input windows, each holding half of it), forms the 256 × 8192 tile of terms, and stores its 128 lane sums;
  the host adds the 32 · 128 partials and divides. Its positive part is d² itself; the reference takes √d² and squares
  it, after replacing d² by 1 on the diagonal, where both masks are off. On the extended reals √y · √y = y for y ≥ 0,
  and d² is a maximum with zero, so the terms agree pair by pair; the partials regroup to the sum over all pairs
  because addition there is commutative and associative. The precondition is not used.

  The frames: each kernel program runs as the two reshapes of the labels, the region, and the last four host operations
  (Proof/KILaunch.lean and its word-level twin): the arguments are written by nothing. The reference's frame is its
  run with the result dropped.
-/
import proofs.«112609_g56977036148935_feedfinal_177_8_alg».proof.Defs
import proofs.«112609_g56977036148935_feedfinal_177_8_alg».proof.Proof.Gen.Kernel
import proofs.«112609_g56977036148935_feedfinal_177_8_alg».proof.Proof.Gen.KernelIdeal
import proofs.«112609_g56977036148935_feedfinal_177_8_alg».proof.Proof.Gen.ReferenceIdeal
import proofs.«112609_g56977036148935_feedfinal_177_8_alg».proof.Proof.Gen.Pre_finite_inputs
import proofs.«112609_g56977036148935_feedfinal_177_8_alg».proof.Proof.Gen.ReferenceIdeal.Run
import proofs.«112609_g56977036148935_feedfinal_177_8_alg».proof.Proof.KBLaunch
import proofs.«112609_g56977036148935_feedfinal_177_8_alg».proof.Proof.KILaunch
import proofs.«112609_g56977036148935_feedfinal_177_8_alg».proof.Proof.KVLoss
import proofs.«112609_g56977036148935_feedfinal_177_8_alg».proof.Proof.RefLoss
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the matrix and the labels both idealized programs end at the loss of those. -/
theorem algebraic : Cert.algebraic_KernelIdeal_ReferenceIdeal := by
  intro m ρ m' ρ' _ hagree
  refine ⟨fun c _ => Cert.Spec.loss (Cert.KernelIdeal.Hand.xOf m c) (Cert.KernelIdeal.Hand.labOf m c), ?_, ?_⟩
  · exact (θ_run Cert.KernelIdeal.defs _ _).mono (fun _ h c =>
      ⟨(h c _ (Cert.KernelIdeal.Hand.mem_uc Cert.KernelIdeal.main_v4 (by decide))).trans (Cert.KernelIdeal.Hand.kernel_loss m c),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
